-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1024 : Shape := ⟨2, ![2048, 1024]⟩
abbrev S1024 : Shape := ⟨1, ![1024]⟩
abbrev S1024x64 : Shape := ⟨2, ![1024, 64]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16384x2048 .f32) (main_arg1 : FVec F S2048x1024 .f32) (main_arg2 : FVec F S1024 .f32) (main_arg3 : FVec F S1024x64 .f32) (main_arg4 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S16384x2048 : Shape := ⟨2, ![16384, 2048]⟩
abbrev S2048x1024 : Shape := ⟨2, ![2048, 1024]⟩
abbrev S1024 : Shape := ⟨1, ![1024]⟩
abbrev S1024x64 : Shape := ⟨2, ![1024, 64]⟩
abbrev S64 : Shape := ⟨1, ![64]⟩
abbrev S1x1024 : Shape := ⟨2, ![1, 1024]⟩
abbrev S1x64 : Shape := ⟨2, ![1, 64]⟩
abbrev S16384x64 : Shape := ⟨2, ![16384, 64]⟩
abbrev S2048x2048 : Shape := ⟨2, ![2048, 2048]⟩
abbrev S2048x64 : Shape := ⟨2, ![2048, 64]⟩
abbrev S2x2048x64 : Shape := ⟨3, ![2, 2048, 64]⟩
abbrev S1x2048x64 : Shape := ⟨3, ![1, 2048, 64]⟩
abbrev S2048 : Shape := ⟨1, ![2048]⟩
abbrev S2048x1 : Shape := ⟨2, ![2048, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024, .f32⟩
  | .hbm, ⟨3, _⟩ => ⟨S1024x64, .f32⟩
  | .hbm, ⟨4, _⟩ => ⟨S64, .f32⟩
  | .hbm, ⟨5, _⟩ => ⟨S1x1024, .f32⟩
  | .hbm, ⟨6, _⟩ => ⟨S1x64, .f32⟩
  | .hbm, ⟨7, _⟩ => ⟨S16384x64, .f32⟩
  | .local _ .vmem, ⟨0, _⟩ => ⟨S2048x2048, .f32⟩
  | .local _ .vmem, ⟨1, _⟩ => ⟨S2048x2048, .f32⟩
  | .local _ .vmem, ⟨2, _⟩ => ⟨S2048x1024, .f32⟩
  | .local _ .vmem, ⟨3, _⟩ => ⟨S1x1024, .f32⟩
  | .local _ .vmem, ⟨4, _⟩ => ⟨S1024x64, .f32⟩
  | .local _ .vmem, ⟨5, _⟩ => ⟨S1x64, .f32⟩
  | .local _ .vmem, ⟨6, _⟩ => ⟨S2048x64, .f32⟩
  | .local _ .vmem, ⟨7, _⟩ => ⟨S2048x64, .f32⟩
  | .local _ .vmem, ⟨8, _⟩ => ⟨S2x2048x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![9], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2 : Index := Scalar.indexCast v1
  let c0 : Index := 0#32
  let c0_0 : Index := 0#32
  ![v2.toNat, 0, 0]
def k0_cond1 (i : grid0.Coords) : BitVec 1 :=
  let arg0 : BitVec 32 := BitVec.ofNat 32 (i 0).val
  let c8_i32 : BitVec 32 := 8#32
  let v15 : BitVec 1 := Scalar.cmpi .slt arg0 c8_i32
  let v16 : BitVec 32 := Scalar.extui v15
  let c0_i32 : BitVec 32 := 0#32
  let v17 : BitVec 1 := Scalar.cmpi .ne v16 c0_i32
  v17

def k0_off2 (i : grid0.Coords) : Fin 3 → Nat :=
  let arg0 : BitVec 32 := BitVec.ofNat 32 (i 0).val
  let c2_i32 : BitVec 32 := 2#32
  let v0 : BitVec 32 := Scalar.remsi arg0 c2_i32
  let v37 : Index := Scalar.indexCast v0
  let c0_17 : Index := 0#32
  let c0_18 : Index := 0#32
  ![v37.toNat, 0, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  shapeCasts_S64_S1x64 : S64.ShapeCasts S1x64
  h_S1x2048x64 : 0 < S1x2048x64.numel
  shapeCasts_S1x2048x64_S2048x64 : S1x2048x64.ShapeCasts S2048x64
  reduces_S2048x64_S2048 : S2048x64.Reduces [1] S2048
  shapeCasts_S2048_S2048x1 : S2048.ShapeCasts S2048x1
  broadcasts_S2048x1_S2048x64 : S2048x1.Broadcasts S2048x64
  inb_S2048x64_S2048x64_0_0 : ∀ a, (![0, 0] : Fin 2 → Nat) a + S2048x64.size a ≤ S2048x64.size a
  h_S2048x64 : 0 < S2048x64.numel
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  shapeCasts_S2048x64_S1x2048x64 : S2048x64.ShapeCasts S1x2048x64
  dot_S2048x2048_S2048x1024_S2048x1024_1_0_0_1_n_n_wf : DotDims.WF S2048x2048 S2048x1024 S2048x1024 [1] [0] [0] [1] [] []
  dot_S2048x1024_S1024x64_S2048x64_1_0_0_1_n_n_wf : DotDims.WF S2048x1024 S1024x64 S2048x64 [1] [0] [0] [1] [] []
  hrank0 : 0 < grid0.rank
  k0_off1_inb : ∀ i : grid0.Coords, ∀ a, (k0_off1 i) a + S1x2048x64.size a ≤ S2x2048x64.size a
  k0_off2_inb : ∀ i : grid0.Coords, ∀ (k0_h1 : k0_cond1 i = 1#1), ∀ a, (k0_off2 i) a + S1x2048x64.size a ≤ S2x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x2048.size a
  hwx0_0 : ∀ i : grid0.Coords, EltTy.bits .f32 = 32 ∨ (Rect.block (s := S16384x2048) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .f32 = 32 ∨ (Rect.block (s := S2048x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .f32 = 32 ∨ (Rect.block (s := S16384x64) S2048x64.size (cc0_transform_5 i) (hinb0_5 i)).WholeWords (EltTy.packing .f32)

variable [Facts₀]

def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1024 : Shape := ⟨2, ![2048, 1024]⟩
abbrev S1024 : Shape := ⟨1, ![1024]⟩
abbrev S1024x64 : Shape := ⟨2, ![1024, 64]⟩
abbrev S64 : Shape := ⟨1, ![64]⟩
abbrev S16384x1024 : Shape := ⟨2, ![16384, 1024]⟩
abbrev S1x1024 : Shape := ⟨2, ![1, 1024]⟩
abbrev S_ : Shape := ⟨0, ![]⟩
abbrev S16384x64 : Shape := ⟨2, ![16384, 64]⟩
abbrev S1x64 : Shape := ⟨2, ![1, 64]⟩
abbrev S16384 : Shape := ⟨1, ![16384]⟩
abbrev S16384x1 : Shape := ⟨2, ![16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024, .f32⟩
  | .hbm, ⟨3, _⟩ => ⟨S1024x64, .f32⟩
  | .hbm, ⟨4, _⟩ => ⟨S64, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x64, .f32⟩
  | .hbm, ⟨13, _⟩ => ⟨S1x64, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x64, .f32⟩
  | .hbm, ⟨29, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x1024_S16384x1024_1_0_0_1_n_n_wf : DotDims.WF S16384x2048 S2048x1024 S16384x1024 [1] [0] [0] [1] [] []
  dot_S16384x1024_S1024x64_S16384x64_1_0_0_1_n_n_wf : DotDims.WF S16384x1024 S1024x64 S16384x64 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf

class Facts : Prop extends Facts₀ where

variable [Facts]
-- ==== Proof.KernelPoint.lean ====
import proofs.«174143_g56796647523006_cont_9to1c4b_719_23_alg».proof.Proof.Gen.Kernel.Frame
import proofs.«174143_g56796647523006_cont_9to1c4b_719_23_alg».proof.Proof.Gen.Kernel.Skeleton
import Idealize.ShloMosaic.Lib.Pipeline.Value

set_option maxRecDepth 16384

noncomputable section

namespace Cert.Kernel.Stagger

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the staggered router

At grid point i the body first turns the logits block that the point before left in the scratch's slot
1 - i mod 2 into softmax weights and stores them over the whole output block; then, at every point but the last,
it computes the logits of its own token block and stores them into slot i mod 2. The two runs below say exactly
that, for any contents s of the scratch: what the output buffer ends with is the softmax payload of the slot
read, and (at a computing point) the slot written reads back as the logits payload of the five input blocks. -/

/-- The two-entry offset vectors ![0, 0] are the zero function. -/
theorem zero2 : (![0, 0] : Fin 2 → ℕ) = fun _ => 0 := by
  funext a; match a with | ⟨0, _⟩ => rfl | ⟨1, _⟩ => rfl

/-- The slot of the scratch the softmax reads at point i. -/
abbrev readSlot (i : grid0.Coords) : Rect S2x2048x64 := Rect.unit (s := S2x2048x64) (k0_off1 i) S1x2048x64.size (Facts₀.k0_off1_inb i)
/-- The slot the logits are stored into at a computing point i. -/
abbrev writeSlot (i : grid0.Coords) (hc : k0_cond1 i = 1#1) : Rect S2x2048x64 := Rect.unit (s := S2x2048x64) (k0_off2 i) S1x2048x64.size (Facts₀.k0_off2_inb i hc)

set_option maxHeartbeats 1000000 in
/-- A computing point (every point but the last): the output buffer ends at the softmax of the slot read, the
    slot written reads back as the logits of the point's own input blocks, the inputs are untouched. -/
theorem run_computing (c : Dev nD) (i : grid0.Coords) (arg1 : Memref sig .tc .vmem S2048x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2x2048x64 .f32) (harg7 : arg7.IsWhole) (hc0 : k0_cond1 i = 1#1)
    (x0 : Vec F S2048x2048 .f32) (x1 : Vec F S2048x1024 .f32) (x2 : Vec F S1x1024 .f32) (x3 : Vec F S1024x64 .f32) (x4 : Vec F S1x64 .f32) (s : Vec F S2x2048x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (View.ld s (readSlot i)))
                ∗ (∃ s' : Vec F S2x2048x64 .f32, ⌜View.ld s' (writeSlot i hc0) = k0_pay2 x0 x1 x2 x3 x4⌝ ∗ owns (c : Thread nD τ) arg7 fullShare s')) -∗ K ⟨⟩))
          ⊢ wp frame (wpE (defs₀ (F := F)) Variants.none c none) E (cc0__router_block i arg1 harg1 arg2 harg2 arg3 harg3 arg4 harg4 arg5 harg5 arg6 harg6 arg7 harg7) K := by
    intro E K
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (View.read_writes_eq_canon _ _ _ (fun y => ⟨_, List.mem_singleton_self _, View.mem_set_unit_zero zero2 Facts₀.inb_S2048x64_S2048x64_0_0 y⟩)).trans ?_
      refine (View.canon_unit_zero zero2 _ _).trans ?_
      exact congrArg k0_pay1 (by rw [View.readAt_eq_ld, harg7.read_unread])
    iexists _; isplitr; swap
    · iexists _; isplitr; swap; · iexact HS0
      ipureintro; rfl
    ipureintro
    refine (funext fun x => View.read_writes_cons_emb _ _ _ _ [] x).trans ?_
    have e0 : View.readAt (Elt F) arg1.view (Rect.unit (s := S2048x2048) ![0, 0] S2048x2048.size Facts₀.inb_S2048x2048_S2048x2048_0_0).toLoadRect (harg1.unread x0) = x0 := by
      rw [View.readAt_eq_ld, harg1.read_unread]; exact View.ld_unit_zero (S := S2048x2048) zero2 _ x0
    have e1 : View.readAt (Elt F) arg2.view (Rect.unit (s := S2048x1024) ![0, 0] S2048x1024.size Facts₀.inb_S2048x1024_S2048x1024_0_0).toLoadRect (harg2.unread x1) = x1 := by
      rw [View.readAt_eq_ld, harg2.read_unread]; exact View.ld_unit_zero (S := S2048x1024) zero2 _ x1
    have e2 : View.readAt (Elt F) arg3.view (Rect.unit (s := S1x1024) ![0, 0] S1x1024.size Facts₀.inb_S1x1024_S1x1024_0_0).toLoadRect (harg3.unread x2) = x2 := by
      rw [View.readAt_eq_ld, harg3.read_unread]; exact View.ld_unit_zero (S := S1x1024) zero2 _ x2
    have e3 : View.readAt (Elt F) arg4.view (Rect.unit (s := S1024x64) ![0, 0] S1024x64.size Facts₀.inb_S1024x64_S1024x64_0_0).toLoadRect (harg4.unread x3) = x3 := by
      rw [View.readAt_eq_ld, harg4.read_unread]; exact View.ld_unit_zero (S := S1024x64) zero2 _ x3
    have e4 : View.readAt (Elt F) arg5.view (Rect.unit (s := S1x64) ![0, 0] S1x64.size Facts₀.inb_S1x64_S1x64_0_0).toLoadRect (harg5.unread x4) = x4 := by
      rw [View.readAt_eq_ld, harg5.read_unread]; exact View.ld_unit_zero (S := S1x64) zero2 _ x4
    rw [e0, e1, e2, e3, e4]

set_option maxHeartbeats 1000000 in
/-- The last point: only the softmax runs; the output buffer ends at the softmax of the slot read and the scratch
    and the inputs are untouched. -/
theorem run_last (c : Dev nD) (i : grid0.Coords) (arg1 : Memref sig .tc .vmem S2048x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2x2048x64 .f32) (harg7 : arg7.IsWhole) (hc0 : ¬k0_cond1 i = 1#1)
    (x0 : Vec F S2048x2048 .f32) (x1 : Vec F S2048x1024 .f32) (x2 : Vec F S1x1024 .f32) (x3 : Vec F S1024x64 .f32) (x4 : Vec F S1x64 .f32) (s : Vec F S2x2048x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (View.ld s (readSlot i)))
                ∗ owns (c : Thread nD τ) arg7 fullShare s) -∗ K ⟨⟩))
          ⊢ wp frame (wpE (defs₀ (F := F)) Variants.none c none) E (cc0__router_block i arg1 harg1 arg2 harg2 arg3 harg3 arg4 harg4 arg5 harg5 arg6 harg6 arg7 harg7) K := by
    intro E K
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (View.read_writes_eq_canon _ _ _ (fun y => ⟨_, List.mem_singleton_self _, View.mem_set_unit_zero zero2 Facts₀.inb_S2048x64_S2048x64_0_0 y⟩)).trans ?_
      refine (View.canon_unit_zero zero2 _ _).trans ?_
      exact congrArg k0_pay1 (by rw [View.readAt_eq_ld, harg7.read_unread])
    iexists _; isplitr; swap; · iexact HS0
    ipureintro; exact harg7.read_unread _

end Cert.Kernel.Stagger

end
-- ==== Proof.KernelLaunch.lean ====
import proofs.«174143_g56796647523006_cont_9to1c4b_719_23_alg».proof.Proof.KernelPoint

set_option maxRecDepth 16384

noncomputable section

namespace Cert.Kernel.Stagger

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule of the stagger

The grid has nine points for eight token blocks. Points 0 … 7 compute (point t the logits of block t); every point
writes softmax weights into the output's buffer, and the pipeline writes that buffer back to output block t - 1 after
each of the points 1 … 8. The slot of the scratch that point t + 1 reads is the slot point t has written. -/

/-- The body's branch is taken at the first eight points. -/
theorem computing_iff : ∀ t : Fin cfg0.N, k0_cond1 (grid0.coords t) = 1#1 ↔ t.val < 8 :=
  (by decide +kernel : ∀ t : Fin grid0.N, k0_cond1 (grid0.coords t) = 1#1 ↔ t.val < 8)

/-- The slot read at a point is the slot written at the point before. -/
theorem read_eq_written : ∀ t t' : Fin cfg0.N, t'.val = t.val + 1 → k0_off1 (grid0.coords t') = k0_off2 (grid0.coords t) :=
  (by decide +kernel : ∀ t t' : Fin grid0.N, t'.val = t.val + 1 → k0_off1 (grid0.coords t') = k0_off2 (grid0.coords t))

/-- Two unit rectangles of one size at equal offsets are one rectangle. -/
theorem unit_congr {s : Shape} {off off' size : Fin s.rank → ℕ} (h : off = off') (inb : ∀ a, off a + size a ≤ s.size a)
    (inb' : ∀ a, off' a + size a ≤ s.size a) : Rect.unit (s := s) off size inb = Rect.unit (s := s) off' size inb' := by
  subst h; rfl

/-- A load through a unit rectangle depends on its offsets only through their values. -/
theorem ld_unit_congr {S : Shape} {e : EltTy} {Val : EltTy → Type} (X : S.Idx → Val e) {off off' size : Fin S.rank → ℕ} (h : off = off')
    (inb : ∀ a, off a + size a ≤ S.size a) (inb' : ∀ a, off' a + size a ≤ S.size a) :
    View.ld X (Rect.unit (s := S) off size inb) = View.ld X (Rect.unit (s := S) off' size inb') := by
  subst h; rfl

theorem readSlot_succ (t t' : Fin cfg0.N) (h : t'.val = t.val + 1) (hc : k0_cond1 (grid0.coords t) = 1#1) :
    readSlot (grid0.coords t') = writeSlot (grid0.coords t) hc :=
  unit_congr (read_eq_written t t' h) _ _

/-! ## The buffers of a point -/

abbrev ms0 (t : Fin cfg0.N) : Memref sig .tc .vmem S2048x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x64 .f32 := win0_5.stage (cfg0.slots t 5)
abbrev hs5 (t : Fin cfg0.N) : (ms5 t).IsWhole := hstage0_5 ((cfg0.slots t 5).cast nbuf0_5)
/-- The scratch of two logits slots, a whole buffer of the kernel's own. -/
abbrev scM : Memref sig .tc .vmem S2x2048x64 .f32 := Memref.whole cc0_scratch0

/-- What the region is handed besides its windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the points compute -/

/-- The logits block of grid point t: the body's logits payload of the five input blocks there. -/
def logitsAt (c : Dev nD) (t : Fin cfg0.N) : Vec F S1x2048x64 .f32 :=
  k0_pay2 (iblk m c 0 t) (iblk m c 1 t) (iblk m c 2 t) (iblk m c 3 t) (iblk m c 4 t)

/-- What point t leaves in the output's buffer: the softmax of the logits block of the point before. (At point 0 the
    body turns whatever the scratch held into weights; nothing below reads this value there.) -/
def weightsAt (c : Dev nD) (t : Fin cfg0.N) : Vec F S2048x64 .f32 :=
  k0_pay1 (logitsAt m c ⟨t.val - 1, Nat.lt_of_le_of_lt (Nat.sub_le _ _) t.isLt⟩)

/-- The invariant between points. Before the first point and after the last the scratch holds anything; before a
    point t with 0 < t it holds, in the slot that point will read, the logits block of point t - 1. -/
def Phi (c : Dev nD) (t : Fin (cfg0.N + 1)) : sProp 𝕄 :=
  if h : 0 < t.val ∧ t.val < cfg0.N then
    iprop(iprop(∃ s : Vec F S2x2048x64 .f32, ⌜View.ld s (readSlot (grid0.coords ⟨t.val, h.2⟩))
        = logitsAt m c ⟨t.val - 1, Nat.lt_of_le_of_lt (Nat.sub_le _ _) h.2⟩⌝ ∗ owns (c : Thread nD τ) scM fullShare s) ∗ (∃ r, prngReg c r))
  else Pipeline.ΦA spec0 c

/-- The proof data that names what the body leaves: each input's buffer at its block, the output's at weightsAt. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => weightsAt m c t
  Φ t := Phi m c t
  q _ := fullShare
  owed _ := 0

/-- At the first point the scratch is read before anything stored it, so what the body leaves in the output's buffer
    there has no name; the relation for the output window says nothing at point 0 and names the contents afterwards. -/
def outRel (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => none
    | ⟨3, _⟩ => none
    | ⟨4, _⟩ => none
    | ⟨5, _⟩ => some fun t _ X => t.val ≠ 0 → X = weightsAt m c t

/-- The relational proof data of the run. -/
def rdat (c : Dev nD) : RDat τ (Elt F) Unit ℕ (UR sig nD τ) ℕ cfg0 c := (dats m 0 c).toR.override (outRel m c)

theorem A_eq (c : Dev nD) (w : Fin cfg0.W) : (rdat m c).A w = V m c (Pipeline.arrRef spec0 w) := by
  dsimp only [rdat, dats, RDat.override, Dat.toR]

theorem datsA_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = weightsAt m c t := by dsimp only [dats]

/-- What an input window's buffer may hold when the body runs: its block, fetched at this point or kept. -/
theorem finds_0 (c : Dev nD) (t : Fin cfg0.N) (Y) (h : (rdat m c).Finds 0 t Y) : Y = iblk m c 0 t := by
  obtain ⟨d, rfl⟩ := (dats m 0 c).toR_finds 0 t Y (((dats m 0 c).toR.override_finds (ovr := outRel m c) rfl t Y).mp h)
  exact before0_0_of m (dats m 0 c) (datsA_eq m c 0) (after_0 m c) t d
theorem finds_1 (c : Dev nD) (t : Fin cfg0.N) (Y) (h : (rdat m c).Finds 1 t Y) : Y = iblk m c 1 t := by
  obtain ⟨d, rfl⟩ := (dats m 0 c).toR_finds 1 t Y (((dats m 0 c).toR.override_finds (ovr := outRel m c) rfl t Y).mp h)
  exact before0_1_of m (dats m 0 c) (datsA_eq m c 1) (after_1 m c) t d
theorem finds_2 (c : Dev nD) (t : Fin cfg0.N) (Y) (h : (rdat m c).Finds 2 t Y) : Y = iblk m c 2 t := by
  obtain ⟨d, rfl⟩ := (dats m 0 c).toR_finds 2 t Y (((dats m 0 c).toR.override_finds (ovr := outRel m c) rfl t Y).mp h)
  exact before0_2_of m (dats m 0 c) (datsA_eq m c 2) (after_2 m c) t d
theorem finds_3 (c : Dev nD) (t : Fin cfg0.N) (Y) (h : (rdat m c).Finds 3 t Y) : Y = iblk m c 3 t := by
  obtain ⟨d, rfl⟩ := (dats m 0 c).toR_finds 3 t Y (((dats m 0 c).toR.override_finds (ovr := outRel m c) rfl t Y).mp h)
  exact before0_3_of m (dats m 0 c) (datsA_eq m c 3) (after_3 m c) t d
theorem finds_4 (c : Dev nD) (t : Fin cfg0.N) (Y) (h : (rdat m c).Finds 4 t Y) : Y = iblk m c 4 t := by
  obtain ⟨d, rfl⟩ := (dats m 0 c).toR_finds 4 t Y (((dats m 0 c).toR.override_finds (ovr := outRel m c) rfl t Y).mp h)
  exact before0_4_of m (dats m 0 c) (datsA_eq m c 4) (after_4 m c) t d

/-- The relation of an input window holds of its block, whatever was found. -/
theorem leaves_0 (c : Dev nD) (t : Fin cfg0.N) (Y) : (rdat m c).after 0 t Y (iblk m c 0 t) := by
  rw [show (rdat m c).after 0 = (dats m 0 c).toR.after 0 from (dats m 0 c).toR.override_after_of_eq_none rfl]
  exact (Dat.Leaves.live_iff (dats m 0 c) (.inl rfl)).mpr (after_0 m c t).symm

theorem leaves_1 (c : Dev nD) (t : Fin cfg0.N) (Y) : (rdat m c).after 1 t Y (iblk m c 1 t) := by
  rw [show (rdat m c).after 1 = (dats m 0 c).toR.after 1 from (dats m 0 c).toR.override_after_of_eq_none rfl]
  exact (Dat.Leaves.live_iff (dats m 0 c) (.inl rfl)).mpr (after_1 m c t).symm
theorem leaves_2 (c : Dev nD) (t : Fin cfg0.N) (Y) : (rdat m c).after 2 t Y (iblk m c 2 t) := by
  rw [show (rdat m c).after 2 = (dats m 0 c).toR.after 2 from (dats m 0 c).toR.override_after_of_eq_none rfl]
  exact (Dat.Leaves.live_iff (dats m 0 c) (.inl rfl)).mpr (after_2 m c t).symm
theorem leaves_3 (c : Dev nD) (t : Fin cfg0.N) (Y) : (rdat m c).after 3 t Y (iblk m c 3 t) := by
  rw [show (rdat m c).after 3 = (dats m 0 c).toR.after 3 from (dats m 0 c).toR.override_after_of_eq_none rfl]
  exact (Dat.Leaves.live_iff (dats m 0 c) (.inl rfl)).mpr (after_3 m c t).symm
theorem leaves_4 (c : Dev nD) (t : Fin cfg0.N) (Y) : (rdat m c).after 4 t Y (iblk m c 4 t) := by
  rw [show (rdat m c).after 4 = (dats m 0 c).toR.after 4 from (dats m 0 c).toR.override_after_of_eq_none rfl]
  exact (Dat.Leaves.live_iff (dats m 0 c) (.inl rfl)).mpr (after_4 m c t).symm

/-- The output window's relation: nothing at point 0, the named weights afterwards. -/
theorem rel_5 (c : Dev nD) (t : Fin cfg0.N) (Y X) : (rdat m c).after 5 t Y X ↔ (t.val ≠ 0 → X = weightsAt m c t) := by
  rw [show (rdat m c).after 5 = (fun t _ X => t.val ≠ 0 → X = weightsAt m c t) from
    (dats m 0 c).toR.override_after_of_eq_some (ovr := outRel m c) rfl]

/-! ## The body obligation -/

/-- What the body is handed at point t, the windows one by one: the inputs at their blocks, the output's buffer at anything, -/
def bodyPre (c : Dev nD) (t : Fin cfg0.N) (Y5 : Vec F S2048x64 .f32) : sProp 𝕄 :=
  iprop(Phi m c t.castSucc ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare Y5)

/-- and what it hands back: the inputs as they were, the output's buffer at the point's weights (after point 0). -/
def bodyPost (c : Dev nD) (t : Fin cfg0.N) : sProp 𝕄 :=
  iprop(Phi m c t.succ ∗ (rdat m c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ X : Vec F S2048x64 .f32, ⌜t.val ≠ 0 → X = weightsAt m c t⌝ ∗ owns (c : Thread nD τ) (ms5 t) fullShare X))

theorem Phi_first (c : Dev nD) (t : Fin (cfg0.N + 1)) (h : t.val = 0) : Phi m c t = Pipeline.ΦA spec0 c := by
  unfold Phi; rw [dif_neg (by omega)]

theorem Phi_end (c : Dev nD) (t : Fin (cfg0.N + 1)) (h : cfg0.N ≤ t.val) : Phi m c t = Pipeline.ΦA spec0 c := by
  unfold Phi; rw [dif_neg (by omega)]

theorem Phi_mid (c : Dev nD) (t : Fin (cfg0.N + 1)) (h0 : 0 < t.val) (h1 : t.val < cfg0.N) :
    Phi m c t = iprop(iprop(∃ s : Vec F S2x2048x64 .f32, ⌜View.ld s (readSlot (grid0.coords ⟨t.val, h1⟩))
        = logitsAt m c ⟨t.val - 1, Nat.lt_of_le_of_lt (Nat.sub_le _ _) h1⟩⌝ ∗ owns (c : Thread nD τ) scM fullShare s) ∗ (∃ r, prngReg c r)) := by
  unfold Phi; rw [dif_pos ⟨h0, h1⟩]

set_option maxHeartbeats 1600000 in
/-- The body at any point. At a computing point the run stores the point's logits into the slot the next point reads;
    at every point after the first the slot read holds the logits of the point before, so the weights stored are the
    named ones; the last point stores no logits and the scratch is forgotten. -/
theorem sound_body (c : Dev nD) (t : Fin cfg0.N) (Y5 : Vec F S2048x64 .f32) :
    bodyPre m c t Y5 ⊢ wp frame (wpE (defs₀ (F := F)) Variants.none c none) Set.univ (bodyAt0 t) (fun _ => bodyPost m c t) := by
  unfold bodyPre bodyPost bodyAt0
  rw [show (rdat m c).owesAt () t.succ = (rdat m c).owesAt () t.castSucc from rfl]
  have hN : t.val < 9 := lt_of_lt_of_eq t.isLt (show cfg0.N = 9 from N_0)
  have hN9 : cfg0.N = 9 := N_0
  by_cases h8 : t.val < 8
  · -- a computing point
    have hc : k0_cond1 (grid0.coords t) = 1#1 := (computing_iff t).mpr h8
    have hsucc : (t.succ : Fin (cfg0.N + 1)).val = t.val + 1 := Fin.val_succ t
    rw [Phi_mid m c t.succ (by omega) (by omega)]
    by_cases hz : t.val = 0
    · rw [Phi_first m c t.castSucc (by simpa using hz), PhiA_eq]
      iintro ⟨⟨⟨%s, HS⟩, Hg⟩, Ho, H0, H1, H2, H3, H4, H5⟩
      iapply (run_computing c (grid0.coords t) (ms0 t) (hs0 t) (ms1 t) (hs1 t) (ms2 t) (hs2 t) (ms3 t) (hs3 t) (ms4 t) (hs4 t) (ms5 t) (hs5 t) scM (Memref.isWhole_whole _) hc
        (iblk m c 0 t) (iblk m c 1 t) (iblk m c 2 t) (iblk m c 3 t) (iblk m c 4 t) s Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, ⟨%s', %hs', HS⟩⟩
      isplitl [HS Hg]
      · isplitl [HS]
        · iexists s'; isplitr; swap; · iexact HS
          ipureintro
          have ex : ∀ (a b : Fin cfg0.N), a.val = t.val + 1 → b.val = t.val → View.ld s' (readSlot (grid0.coords a)) = logitsAt m c b := by
            intro a b ha hb
            have hbt : b = t := Fin.ext hb
            subst hbt
            exact (ld_unit_congr s' (read_eq_written b a ha) _ _).trans hs'
          exact ex _ _ (by show (t.succ : Fin (cfg0.N + 1)).val = _; rw [Fin.val_succ]) (by show (t.succ : Fin (cfg0.N + 1)).val - 1 = _; rw [Fin.val_succ]; omega)
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro; intro h; exact absurd hz h
    · rw [Phi_mid m c t.castSucc (by simpa using Nat.pos_of_ne_zero hz) (by simpa using t.isLt)]
      iintro ⟨⟨⟨%s, %hs, HS⟩, Hg⟩, Ho, H0, H1, H2, H3, H4, H5⟩
      iapply (run_computing c (grid0.coords t) (ms0 t) (hs0 t) (ms1 t) (hs1 t) (ms2 t) (hs2 t) (ms3 t) (hs3 t) (ms4 t) (hs4 t) (ms5 t) (hs5 t) scM (Memref.isWhole_whole _) hc
        (iblk m c 0 t) (iblk m c 1 t) (iblk m c 2 t) (iblk m c 3 t) (iblk m c 4 t) s Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, ⟨%s', %hs', HS⟩⟩
      isplitl [HS Hg]
      · isplitl [HS]
        · iexists s'; isplitr; swap; · iexact HS
          ipureintro
          have ex : ∀ (a b : Fin cfg0.N), a.val = t.val + 1 → b.val = t.val → View.ld s' (readSlot (grid0.coords a)) = logitsAt m c b := by
            intro a b ha hb
            have hbt : b = t := Fin.ext hb
            subst hbt
            exact (ld_unit_congr s' (read_eq_written b a ha) _ _).trans hs'
          exact ex _ _ (by show (t.succ : Fin (cfg0.N + 1)).val = _; rw [Fin.val_succ]) (by show (t.succ : Fin (cfg0.N + 1)).val - 1 = _; rw [Fin.val_succ]; omega)
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro; intro _
      unfold weightsAt
      exact congrArg k0_pay1 hs
  · -- the last point
    have hc : ¬k0_cond1 (grid0.coords t) = 1#1 := fun h => h8 ((computing_iff t).mp h)
    have hz : t.val ≠ 0 := by omega
    rw [Phi_end m c t.succ (by rw [Fin.val_succ]; omega), PhiA_eq]
    rw [Phi_mid m c t.castSucc (by simpa using Nat.pos_of_ne_zero hz) (by simpa using t.isLt)]
    iintro ⟨⟨⟨%s, %hs, HS⟩, Hg⟩, Ho, H0, H1, H2, H3, H4, H5⟩
    iapply (run_last c (grid0.coords t) (ms0 t) (hs0 t) (ms1 t) (hs1 t) (ms2 t) (hs2 t) (ms3 t) (hs3 t) (ms4 t) (hs4 t) (ms5 t) (hs5 t) scM (Memref.isWhole_whole _) hc
      (iblk m c 0 t) (iblk m c 1 t) (iblk m c 2 t) (iblk m c 3 t) (iblk m c 4 t) s Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]
      · iexists _; iexact HS
      iexact Hg
    isplitl [Ho]; · iexact Ho
    isplitl [H0]; · iexact H0
    isplitl [H1]; · iexact H1
    isplitl [H2]; · iexact H2
    isplitl [H3]; · iexact H3
    isplitl [H4]; · iexact H4
    iexists _; isplitr; swap; · iexact H5
    ipureintro; intro _
    unfold weightsAt
    exact congrArg k0_pay1 hs

/-- The library's body obligation for the relational data, at every point. -/
theorem body_obligation (c : Dev nD) : (rdat (F := F) m c).BodyObligation (defs₀ (F := F)) Variants.none () Set.univ := fun t Y hY => by
  rw [bigSep_W0, bigSep_W0]
  have e0 := finds_0 m c t (Y 0) (hY 0)
  have e1 := finds_1 m c t (Y 1) (hY 1)
  have e2 := finds_2 m c t (Y 2) (hY 2)
  have e3 := finds_3 m c t (Y 3) (hY 3)
  have e4 := finds_4 m c t (Y 4) (hY 4)
  rw [e0, e1, e2, e3, e4]
  rw [show (rdat m c).Φ t.castSucc = Phi m c t.castSucc from rfl, show (rdat m c).Φ t.succ = Phi m c t.succ from rfl]
  refine (sound_body m c t (Y 5)).trans (wp_mono _ _ _ fun _ => ?_)
  unfold bodyPost
  iintro ⟨HP, Ho, H0, H1, H2, H3, H4, ⟨%X, %hX, H5⟩⟩
  isplitl [HP]; · iexact HP
  isplitl [Ho]; · iexact Ho
  isplitl [H0]; · iexists _; isplitr; · ipureintro; exact leaves_0 m c t _
                  iexact H0
  isplitl [H1]; · iexists _; isplitr; · ipureintro; exact leaves_1 m c t _
                  iexact H1
  isplitl [H2]; · iexists _; isplitr; · ipureintro; exact leaves_2 m c t _
                  iexact H2
  isplitl [H3]; · iexists _; isplitr; · ipureintro; exact leaves_3 m c t _
                  iexact H3
  isplitl [H4]; · iexists _; isplitr; · ipureintro; exact leaves_4 m c t _
                  iexact H4
  iexists X; isplitr; · ipureintro; exact (rel_5 m c t _ X).mpr hX
  iexact H5

/-- What the launch hands the region is the invariant before the first point, -/
theorem hin (c : Dev nD) : Pipeline.ΦA spec0 c ⊢ (rdat m c).Φ 0 := by
  rw [show (rdat m c).Φ 0 = Phi m c 0 from rfl, Phi_first m c 0 rfl]

/-- and the invariant after the last point gives it back. -/
theorem hout (c : Dev nD) : (rdat m c).Φ (Fin.last cfg0.N) ⊢ Pipeline.ΦA spec0 c := by
  rw [show (rdat m c).Φ (Fin.last cfg0.N) = Phi m c (Fin.last cfg0.N) from rfl, Phi_end m c _ (by rw [Fin.val_last])]

/-! ## The run and the frame -/

set_option backward.isDefEq.respectTransparency.types false in
/-- Every weakly fair execution of @main terminates, every input array of the pipeline unchanged, the output array at
    some contents the relation allows, every other unscoped buffer at its region-entry contents. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The frame: the run terminates without a fault and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      (Pipeline.RDat.FramePost.arr_in h c 3 rfl).trans ((A_eq m c 3).trans (V_main_arg3 m c)),
      ((h c).2 main_arg4 (Pipeline.mem_restRefs_of main_arg4 (by decide) (by decide))).trans (V_main_arg4 m c)⟩) (run_main m ρ)

end Cert.Kernel.Stagger

end
-- ==== Proof.KernelIdealPoint.lean ====
import proofs.«174143_g56796647523006_cont_9to1c4b_719_23_alg».proof.Proof.Gen.KernelIdeal.Frame
import proofs.«174143_g56796647523006_cont_9to1c4b_719_23_alg».proof.Proof.Gen.KernelIdeal.Skeleton
import Idealize.ShloMosaic.Lib.Pipeline.Value

set_option maxRecDepth 16384

noncomputable section

namespace Cert.KernelIdeal.Stagger

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the staggered router

At grid point i the body first turns the logits block that the point before left in the scratch's slot
1 - i mod 2 into softmax weights and stores them over the whole output block; then, at every point but the last,
it computes the logits of its own token block and stores them into slot i mod 2. The two runs below say exactly
that, for any contents s of the scratch: what the output buffer ends with is the softmax payload of the slot
read, and (at a computing point) the slot written reads back as the logits payload of the five input blocks. -/

/-- The two-entry offset vectors ![0, 0] are the zero function. -/
theorem zero2 : (![0, 0] : Fin 2 → ℕ) = fun _ => 0 := by
  funext a; match a with | ⟨0, _⟩ => rfl | ⟨1, _⟩ => rfl

/-- The slot of the scratch the softmax reads at point i. -/
abbrev readSlot (i : grid0.Coords) : Rect S2x2048x64 := Rect.unit (s := S2x2048x64) (k0_off1 i) S1x2048x64.size (Facts₀.k0_off1_inb i)
/-- The slot the logits are stored into at a computing point i. -/
abbrev writeSlot (i : grid0.Coords) (hc : k0_cond1 i = 1#1) : Rect S2x2048x64 := Rect.unit (s := S2x2048x64) (k0_off2 i) S1x2048x64.size (Facts₀.k0_off2_inb i hc)

set_option maxHeartbeats 1000000 in
/-- A computing point (every point but the last): the output buffer ends at the softmax of the slot read, the
    slot written reads back as the logits of the point's own input blocks, the inputs are untouched. -/
theorem run_computing (c : Dev nD) (i : grid0.Coords) (arg1 : Memref sig .tc .vmem S2048x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2x2048x64 .f32) (harg7 : arg7.IsWhole) (hc0 : k0_cond1 i = 1#1)
    (x0 : Vec F S2048x2048 .f32) (x1 : Vec F S2048x1024 .f32) (x2 : Vec F S1x1024 .f32) (x3 : Vec F S1024x64 .f32) (x4 : Vec F S1x64 .f32) (s : Vec F S2x2048x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (View.ld s (readSlot i)))
                ∗ (∃ s' : Vec F S2x2048x64 .f32, ⌜View.ld s' (writeSlot i hc0) = k0_pay2 x0 x1 x2 x3 x4⌝ ∗ owns (c : Thread nD τ) arg7 fullShare s')) -∗ K ⟨⟩))
          ⊢ wp frame (wpE (defs₀ (F := F)) Variants.none c none) E (cc0__router_block i arg1 harg1 arg2 harg2 arg3 harg3 arg4 harg4 arg5 harg5 arg6 harg6 arg7 harg7) K := by
    intro E K
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (View.read_writes_eq_canon _ _ _ (fun y => ⟨_, List.mem_singleton_self _, View.mem_set_unit_zero zero2 Facts₀.inb_S2048x64_S2048x64_0_0 y⟩)).trans ?_
      refine (View.canon_unit_zero zero2 _ _).trans ?_
      exact congrArg k0_pay1 (by rw [View.readAt_eq_ld, harg7.read_unread])
    iexists _; isplitr; swap
    · iexists _; isplitr; swap; · iexact HS0
      ipureintro; rfl
    ipureintro
    refine (funext fun x => View.read_writes_cons_emb _ _ _ _ [] x).trans ?_
    have e0 : View.readAt (Elt F) arg1.view (Rect.unit (s := S2048x2048) ![0, 0] S2048x2048.size Facts₀.inb_S2048x2048_S2048x2048_0_0).toLoadRect (harg1.unread x0) = x0 := by
      rw [View.readAt_eq_ld, harg1.read_unread]; exact View.ld_unit_zero (S := S2048x2048) zero2 _ x0
    have e1 : View.readAt (Elt F) arg2.view (Rect.unit (s := S2048x1024) ![0, 0] S2048x1024.size Facts₀.inb_S2048x1024_S2048x1024_0_0).toLoadRect (harg2.unread x1) = x1 := by
      rw [View.readAt_eq_ld, harg2.read_unread]; exact View.ld_unit_zero (S := S2048x1024) zero2 _ x1
    have e2 : View.readAt (Elt F) arg3.view (Rect.unit (s := S1x1024) ![0, 0] S1x1024.size Facts₀.inb_S1x1024_S1x1024_0_0).toLoadRect (harg3.unread x2) = x2 := by
      rw [View.readAt_eq_ld, harg3.read_unread]; exact View.ld_unit_zero (S := S1x1024) zero2 _ x2
    have e3 : View.readAt (Elt F) arg4.view (Rect.unit (s := S1024x64) ![0, 0] S1024x64.size Facts₀.inb_S1024x64_S1024x64_0_0).toLoadRect (harg4.unread x3) = x3 := by
      rw [View.readAt_eq_ld, harg4.read_unread]; exact View.ld_unit_zero (S := S1024x64) zero2 _ x3
    have e4 : View.readAt (Elt F) arg5.view (Rect.unit (s := S1x64) ![0, 0] S1x64.size Facts₀.inb_S1x64_S1x64_0_0).toLoadRect (harg5.unread x4) = x4 := by
      rw [View.readAt_eq_ld, harg5.read_unread]; exact View.ld_unit_zero (S := S1x64) zero2 _ x4
    rw [e0, e1, e2, e3, e4]

set_option maxHeartbeats 1000000 in
/-- The last point: only the softmax runs; the output buffer ends at the softmax of the slot read and the scratch
    and the inputs are untouched. -/
theorem run_last (c : Dev nD) (i : grid0.Coords) (arg1 : Memref sig .tc .vmem S2048x2048 .f32) (harg1 : arg1.IsWhole) (arg2 : Memref sig .tc .vmem S2048x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S2048x64 .f32) (harg6 : arg6.IsWhole) (arg7 : Memref sig .tc .vmem S2x2048x64 .f32) (harg7 : arg7.IsWhole) (hc0 : ¬k0_cond1 i = 1#1)
    (x0 : Vec F S2048x2048 .f32) (x1 : Vec F S2048x1024 .f32) (x2 : Vec F S1x1024 .f32) (x3 : Vec F S1024x64 .f32) (x4 : Vec F S1x64 .f32) (s : Vec F S2x2048x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (k0_pay1 (View.ld s (readSlot i)))
                ∗ owns (c : Thread nD τ) arg7 fullShare s) -∗ K ⟨⟩))
          ⊢ wp frame (wpE (defs₀ (F := F)) Variants.none c none) E (cc0__router_block i arg1 harg1 arg2 harg2 arg3 harg3 arg4 harg4 arg5 harg5 arg6 harg6 arg7 harg7) K := by
    intro E K
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (View.read_writes_eq_canon _ _ _ (fun y => ⟨_, List.mem_singleton_self _, View.mem_set_unit_zero zero2 Facts₀.inb_S2048x64_S2048x64_0_0 y⟩)).trans ?_
      refine (View.canon_unit_zero zero2 _ _).trans ?_
      exact congrArg k0_pay1 (by rw [View.readAt_eq_ld, harg7.read_unread])
    iexists _; isplitr; swap; · iexact HS0
    ipureintro; exact harg7.read_unread _

end Cert.KernelIdeal.Stagger

end
-- ==== Proof.KernelIdealLaunch.lean ====
import proofs.«174143_g56796647523006_cont_9to1c4b_719_23_alg».proof.Proof.KernelIdealPoint

set_option maxRecDepth 16384

noncomputable section

namespace Cert.KernelIdeal.Stagger

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule of the stagger

The grid has nine points for eight token blocks. Points 0 … 7 compute (point t the logits of block t); every point
writes softmax weights into the output's buffer, and the pipeline writes that buffer back to output block t - 1 after
each of the points 1 … 8. The slot of the scratch that point t + 1 reads is the slot point t has written. -/

/-- The body's branch is taken at the first eight points. -/
theorem computing_iff : ∀ t : Fin cfg0.N, k0_cond1 (grid0.coords t) = 1#1 ↔ t.val < 8 :=
  (by decide +kernel : ∀ t : Fin grid0.N, k0_cond1 (grid0.coords t) = 1#1 ↔ t.val < 8)

/-- The slot read at a point is the slot written at the point before. -/
theorem read_eq_written : ∀ t t' : Fin cfg0.N, t'.val = t.val + 1 → k0_off1 (grid0.coords t') = k0_off2 (grid0.coords t) :=
  (by decide +kernel : ∀ t t' : Fin grid0.N, t'.val = t.val + 1 → k0_off1 (grid0.coords t') = k0_off2 (grid0.coords t))

/-- Two unit rectangles of one size at equal offsets are one rectangle. -/
theorem unit_congr {s : Shape} {off off' size : Fin s.rank → ℕ} (h : off = off') (inb : ∀ a, off a + size a ≤ s.size a)
    (inb' : ∀ a, off' a + size a ≤ s.size a) : Rect.unit (s := s) off size inb = Rect.unit (s := s) off' size inb' := by
  subst h; rfl

/-- A load through a unit rectangle depends on its offsets only through their values. -/
theorem ld_unit_congr {S : Shape} {e : EltTy} {Val : EltTy → Type} (X : S.Idx → Val e) {off off' size : Fin S.rank → ℕ} (h : off = off')
    (inb : ∀ a, off a + size a ≤ S.size a) (inb' : ∀ a, off' a + size a ≤ S.size a) :
    View.ld X (Rect.unit (s := S) off size inb) = View.ld X (Rect.unit (s := S) off' size inb') := by
  subst h; rfl

theorem readSlot_succ (t t' : Fin cfg0.N) (h : t'.val = t.val + 1) (hc : k0_cond1 (grid0.coords t) = 1#1) :
    readSlot (grid0.coords t') = writeSlot (grid0.coords t) hc :=
  unit_congr (read_eq_written t t' h) _ _

/-! ## The buffers of a point -/

abbrev ms0 (t : Fin cfg0.N) : Memref sig .tc .vmem S2048x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x64 .f32 := win0_5.stage (cfg0.slots t 5)
abbrev hs5 (t : Fin cfg0.N) : (ms5 t).IsWhole := hstage0_5 ((cfg0.slots t 5).cast nbuf0_5)
/-- The scratch of two logits slots, a whole buffer of the kernel's own. -/
abbrev scM : Memref sig .tc .vmem S2x2048x64 .f32 := Memref.whole cc0_scratch0

/-- What the region is handed besides its windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the points compute -/

/-- The logits block of grid point t: the body's logits payload of the five input blocks there. -/
def logitsAt (c : Dev nD) (t : Fin cfg0.N) : Vec F S1x2048x64 .f32 :=
  k0_pay2 (iblk m c 0 t) (iblk m c 1 t) (iblk m c 2 t) (iblk m c 3 t) (iblk m c 4 t)

/-- What point t leaves in the output's buffer: the softmax of the logits block of the point before. (At point 0 the
    body turns whatever the scratch held into weights; nothing below reads this value there.) -/
def weightsAt (c : Dev nD) (t : Fin cfg0.N) : Vec F S2048x64 .f32 :=
  k0_pay1 (logitsAt m c ⟨t.val - 1, Nat.lt_of_le_of_lt (Nat.sub_le _ _) t.isLt⟩)

/-- The invariant between points. Before the first point and after the last the scratch holds anything; before a
    point t with 0 < t it holds, in the slot that point will read, the logits block of point t - 1. -/
def Phi (c : Dev nD) (t : Fin (cfg0.N + 1)) : sProp 𝕄 :=
  if h : 0 < t.val ∧ t.val < cfg0.N then
    iprop(iprop(∃ s : Vec F S2x2048x64 .f32, ⌜View.ld s (readSlot (grid0.coords ⟨t.val, h.2⟩))
        = logitsAt m c ⟨t.val - 1, Nat.lt_of_le_of_lt (Nat.sub_le _ _) h.2⟩⌝ ∗ owns (c : Thread nD τ) scM fullShare s) ∗ (∃ r, prngReg c r))
  else Pipeline.ΦA spec0 c

/-- The proof data that names what the body leaves: each input's buffer at its block, the output's at weightsAt. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => weightsAt m c t
  Φ t := Phi m c t
  q _ := fullShare
  owed _ := 0

/-- At the first point the scratch is read before anything stored it, so what the body leaves in the output's buffer
    there has no name; the relation for the output window says nothing at point 0 and names the contents afterwards. -/
def outRel (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => none
    | ⟨3, _⟩ => none
    | ⟨4, _⟩ => none
    | ⟨5, _⟩ => some fun t _ X => t.val ≠ 0 → X = weightsAt m c t

/-- The relational proof data of the run. -/
def rdat (c : Dev nD) : RDat τ (Elt F) Unit ℕ (UR sig nD τ) ℕ cfg0 c := (dats m 0 c).toR.override (outRel m c)

theorem A_eq (c : Dev nD) (w : Fin cfg0.W) : (rdat m c).A w = V m c (Pipeline.arrRef spec0 w) := by
  dsimp only [rdat, dats, RDat.override, Dat.toR]

theorem datsA_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = weightsAt m c t := by dsimp only [dats]

/-- What an input window's buffer may hold when the body runs: its block, fetched at this point or kept. -/
theorem finds_0 (c : Dev nD) (t : Fin cfg0.N) (Y) (h : (rdat m c).Finds 0 t Y) : Y = iblk m c 0 t := by
  obtain ⟨d, rfl⟩ := (dats m 0 c).toR_finds 0 t Y (((dats m 0 c).toR.override_finds (ovr := outRel m c) rfl t Y).mp h)
  exact before0_0_of m (dats m 0 c) (datsA_eq m c 0) (after_0 m c) t d
theorem finds_1 (c : Dev nD) (t : Fin cfg0.N) (Y) (h : (rdat m c).Finds 1 t Y) : Y = iblk m c 1 t := by
  obtain ⟨d, rfl⟩ := (dats m 0 c).toR_finds 1 t Y (((dats m 0 c).toR.override_finds (ovr := outRel m c) rfl t Y).mp h)
  exact before0_1_of m (dats m 0 c) (datsA_eq m c 1) (after_1 m c) t d
theorem finds_2 (c : Dev nD) (t : Fin cfg0.N) (Y) (h : (rdat m c).Finds 2 t Y) : Y = iblk m c 2 t := by
  obtain ⟨d, rfl⟩ := (dats m 0 c).toR_finds 2 t Y (((dats m 0 c).toR.override_finds (ovr := outRel m c) rfl t Y).mp h)
  exact before0_2_of m (dats m 0 c) (datsA_eq m c 2) (after_2 m c) t d
theorem finds_3 (c : Dev nD) (t : Fin cfg0.N) (Y) (h : (rdat m c).Finds 3 t Y) : Y = iblk m c 3 t := by
  obtain ⟨d, rfl⟩ := (dats m 0 c).toR_finds 3 t Y (((dats m 0 c).toR.override_finds (ovr := outRel m c) rfl t Y).mp h)
  exact before0_3_of m (dats m 0 c) (datsA_eq m c 3) (after_3 m c) t d
theorem finds_4 (c : Dev nD) (t : Fin cfg0.N) (Y) (h : (rdat m c).Finds 4 t Y) : Y = iblk m c 4 t := by
  obtain ⟨d, rfl⟩ := (dats m 0 c).toR_finds 4 t Y (((dats m 0 c).toR.override_finds (ovr := outRel m c) rfl t Y).mp h)
  exact before0_4_of m (dats m 0 c) (datsA_eq m c 4) (after_4 m c) t d

/-- The relation of an input window holds of its block, whatever was found. -/
theorem leaves_0 (c : Dev nD) (t : Fin cfg0.N) (Y) : (rdat m c).after 0 t Y (iblk m c 0 t) := by
  rw [show (rdat m c).after 0 = (dats m 0 c).toR.after 0 from (dats m 0 c).toR.override_after_of_eq_none rfl]
  exact (Dat.Leaves.live_iff (dats m 0 c) (.inl rfl)).mpr (after_0 m c t).symm

theorem leaves_1 (c : Dev nD) (t : Fin cfg0.N) (Y) : (rdat m c).after 1 t Y (iblk m c 1 t) := by
  rw [show (rdat m c).after 1 = (dats m 0 c).toR.after 1 from (dats m 0 c).toR.override_after_of_eq_none rfl]
  exact (Dat.Leaves.live_iff (dats m 0 c) (.inl rfl)).mpr (after_1 m c t).symm
theorem leaves_2 (c : Dev nD) (t : Fin cfg0.N) (Y) : (rdat m c).after 2 t Y (iblk m c 2 t) := by
  rw [show (rdat m c).after 2 = (dats m 0 c).toR.after 2 from (dats m 0 c).toR.override_after_of_eq_none rfl]
  exact (Dat.Leaves.live_iff (dats m 0 c) (.inl rfl)).mpr (after_2 m c t).symm
theorem leaves_3 (c : Dev nD) (t : Fin cfg0.N) (Y) : (rdat m c).after 3 t Y (iblk m c 3 t) := by
  rw [show (rdat m c).after 3 = (dats m 0 c).toR.after 3 from (dats m 0 c).toR.override_after_of_eq_none rfl]
  exact (Dat.Leaves.live_iff (dats m 0 c) (.inl rfl)).mpr (after_3 m c t).symm
theorem leaves_4 (c : Dev nD) (t : Fin cfg0.N) (Y) : (rdat m c).after 4 t Y (iblk m c 4 t) := by
  rw [show (rdat m c).after 4 = (dats m 0 c).toR.after 4 from (dats m 0 c).toR.override_after_of_eq_none rfl]
  exact (Dat.Leaves.live_iff (dats m 0 c) (.inl rfl)).mpr (after_4 m c t).symm

/-- The output window's relation: nothing at point 0, the named weights afterwards. -/
theorem rel_5 (c : Dev nD) (t : Fin cfg0.N) (Y X) : (rdat m c).after 5 t Y X ↔ (t.val ≠ 0 → X = weightsAt m c t) := by
  rw [show (rdat m c).after 5 = (fun t _ X => t.val ≠ 0 → X = weightsAt m c t) from
    (dats m 0 c).toR.override_after_of_eq_some (ovr := outRel m c) rfl]

/-! ## The body obligation -/

/-- What the body is handed at point t, the windows one by one: the inputs at their blocks, the output's buffer at anything, -/
def bodyPre (c : Dev nD) (t : Fin cfg0.N) (Y5 : Vec F S2048x64 .f32) : sProp 𝕄 :=
  iprop(Phi m c t.castSucc ∗ (rdat m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare Y5)

/-- and what it hands back: the inputs as they were, the output's buffer at the point's weights (after point 0). -/
def bodyPost (c : Dev nD) (t : Fin cfg0.N) : sProp 𝕄 :=
  iprop(Phi m c t.succ ∗ (rdat m c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ X : Vec F S2048x64 .f32, ⌜t.val ≠ 0 → X = weightsAt m c t⌝ ∗ owns (c : Thread nD τ) (ms5 t) fullShare X))

theorem Phi_first (c : Dev nD) (t : Fin (cfg0.N + 1)) (h : t.val = 0) : Phi m c t = Pipeline.ΦA spec0 c := by
  unfold Phi; rw [dif_neg (by omega)]

theorem Phi_end (c : Dev nD) (t : Fin (cfg0.N + 1)) (h : cfg0.N ≤ t.val) : Phi m c t = Pipeline.ΦA spec0 c := by
  unfold Phi; rw [dif_neg (by omega)]

theorem Phi_mid (c : Dev nD) (t : Fin (cfg0.N + 1)) (h0 : 0 < t.val) (h1 : t.val < cfg0.N) :
    Phi m c t = iprop(iprop(∃ s : Vec F S2x2048x64 .f32, ⌜View.ld s (readSlot (grid0.coords ⟨t.val, h1⟩))
        = logitsAt m c ⟨t.val - 1, Nat.lt_of_le_of_lt (Nat.sub_le _ _) h1⟩⌝ ∗ owns (c : Thread nD τ) scM fullShare s) ∗ (∃ r, prngReg c r)) := by
  unfold Phi; rw [dif_pos ⟨h0, h1⟩]

set_option maxHeartbeats 1600000 in
/-- The body at any point. At a computing point the run stores the point's logits into the slot the next point reads;
    at every point after the first the slot read holds the logits of the point before, so the weights stored are the
    named ones; the last point stores no logits and the scratch is forgotten. -/
theorem sound_body (c : Dev nD) (t : Fin cfg0.N) (Y5 : Vec F S2048x64 .f32) :
    bodyPre m c t Y5 ⊢ wp frame (wpE (defs₀ (F := F)) Variants.none c none) Set.univ (bodyAt0 t) (fun _ => bodyPost m c t) := by
  unfold bodyPre bodyPost bodyAt0
  rw [show (rdat m c).owesAt () t.succ = (rdat m c).owesAt () t.castSucc from rfl]
  have hN : t.val < 9 := lt_of_lt_of_eq t.isLt (show cfg0.N = 9 from N_0)
  have hN9 : cfg0.N = 9 := N_0
  by_cases h8 : t.val < 8
  · -- a computing point
    have hc : k0_cond1 (grid0.coords t) = 1#1 := (computing_iff t).mpr h8
    have hsucc : (t.succ : Fin (cfg0.N + 1)).val = t.val + 1 := Fin.val_succ t
    rw [Phi_mid m c t.succ (by omega) (by omega)]
    by_cases hz : t.val = 0
    · rw [Phi_first m c t.castSucc (by simpa using hz), PhiA_eq]
      iintro ⟨⟨⟨%s, HS⟩, Hg⟩, Ho, H0, H1, H2, H3, H4, H5⟩
      iapply (run_computing c (grid0.coords t) (ms0 t) (hs0 t) (ms1 t) (hs1 t) (ms2 t) (hs2 t) (ms3 t) (hs3 t) (ms4 t) (hs4 t) (ms5 t) (hs5 t) scM (Memref.isWhole_whole _) hc
        (iblk m c 0 t) (iblk m c 1 t) (iblk m c 2 t) (iblk m c 3 t) (iblk m c 4 t) s Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, ⟨%s', %hs', HS⟩⟩
      isplitl [HS Hg]
      · isplitl [HS]
        · iexists s'; isplitr; swap; · iexact HS
          ipureintro
          have ex : ∀ (a b : Fin cfg0.N), a.val = t.val + 1 → b.val = t.val → View.ld s' (readSlot (grid0.coords a)) = logitsAt m c b := by
            intro a b ha hb
            have hbt : b = t := Fin.ext hb
            subst hbt
            exact (ld_unit_congr s' (read_eq_written b a ha) _ _).trans hs'
          exact ex _ _ (by show (t.succ : Fin (cfg0.N + 1)).val = _; rw [Fin.val_succ]) (by show (t.succ : Fin (cfg0.N + 1)).val - 1 = _; rw [Fin.val_succ]; omega)
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro; intro h; exact absurd hz h
    · rw [Phi_mid m c t.castSucc (by simpa using Nat.pos_of_ne_zero hz) (by simpa using t.isLt)]
      iintro ⟨⟨⟨%s, %hs, HS⟩, Hg⟩, Ho, H0, H1, H2, H3, H4, H5⟩
      iapply (run_computing c (grid0.coords t) (ms0 t) (hs0 t) (ms1 t) (hs1 t) (ms2 t) (hs2 t) (ms3 t) (hs3 t) (ms4 t) (hs4 t) (ms5 t) (hs5 t) scM (Memref.isWhole_whole _) hc
        (iblk m c 0 t) (iblk m c 1 t) (iblk m c 2 t) (iblk m c 3 t) (iblk m c 4 t) s Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, ⟨%s', %hs', HS⟩⟩
      isplitl [HS Hg]
      · isplitl [HS]
        · iexists s'; isplitr; swap; · iexact HS
          ipureintro
          have ex : ∀ (a b : Fin cfg0.N), a.val = t.val + 1 → b.val = t.val → View.ld s' (readSlot (grid0.coords a)) = logitsAt m c b := by
            intro a b ha hb
            have hbt : b = t := Fin.ext hb
            subst hbt
            exact (ld_unit_congr s' (read_eq_written b a ha) _ _).trans hs'
          exact ex _ _ (by show (t.succ : Fin (cfg0.N + 1)).val = _; rw [Fin.val_succ]) (by show (t.succ : Fin (cfg0.N + 1)).val - 1 = _; rw [Fin.val_succ]; omega)
        iexact Hg
      isplitl [Ho]; · iexact Ho
      isplitl [H0]; · iexact H0
      isplitl [H1]; · iexact H1
      isplitl [H2]; · iexact H2
      isplitl [H3]; · iexact H3
      isplitl [H4]; · iexact H4
      iexists _; isplitr; swap; · iexact H5
      ipureintro; intro _
      unfold weightsAt
      exact congrArg k0_pay1 hs
  · -- the last point
    have hc : ¬k0_cond1 (grid0.coords t) = 1#1 := fun h => h8 ((computing_iff t).mp h)
    have hz : t.val ≠ 0 := by omega
    rw [Phi_end m c t.succ (by rw [Fin.val_succ]; omega), PhiA_eq]
    rw [Phi_mid m c t.castSucc (by simpa using Nat.pos_of_ne_zero hz) (by simpa using t.isLt)]
    iintro ⟨⟨⟨%s, %hs, HS⟩, Hg⟩, Ho, H0, H1, H2, H3, H4, H5⟩
    iapply (run_last c (grid0.coords t) (ms0 t) (hs0 t) (ms1 t) (hs1 t) (ms2 t) (hs2 t) (ms3 t) (hs3 t) (ms4 t) (hs4 t) (ms5 t) (hs5 t) scM (Memref.isWhole_whole _) hc
      (iblk m c 0 t) (iblk m c 1 t) (iblk m c 2 t) (iblk m c 3 t) (iblk m c 4 t) s Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hg]
    · isplitl [HS]
      · iexists _; iexact HS
      iexact Hg
    isplitl [Ho]; · iexact Ho
    isplitl [H0]; · iexact H0
    isplitl [H1]; · iexact H1
    isplitl [H2]; · iexact H2
    isplitl [H3]; · iexact H3
    isplitl [H4]; · iexact H4
    iexists _; isplitr; swap; · iexact H5
    ipureintro; intro _
    unfold weightsAt
    exact congrArg k0_pay1 hs

/-- The library's body obligation for the relational data, at every point. -/
theorem body_obligation (c : Dev nD) : (rdat (F := F) m c).BodyObligation (defs₀ (F := F)) Variants.none () Set.univ := fun t Y hY => by
  rw [bigSep_W0, bigSep_W0]
  have e0 := finds_0 m c t (Y 0) (hY 0)
  have e1 := finds_1 m c t (Y 1) (hY 1)
  have e2 := finds_2 m c t (Y 2) (hY 2)
  have e3 := finds_3 m c t (Y 3) (hY 3)
  have e4 := finds_4 m c t (Y 4) (hY 4)
  rw [e0, e1, e2, e3, e4]
  rw [show (rdat m c).Φ t.castSucc = Phi m c t.castSucc from rfl, show (rdat m c).Φ t.succ = Phi m c t.succ from rfl]
  refine (sound_body m c t (Y 5)).trans (wp_mono _ _ _ fun _ => ?_)
  unfold bodyPost
  iintro ⟨HP, Ho, H0, H1, H2, H3, H4, ⟨%X, %hX, H5⟩⟩
  isplitl [HP]; · iexact HP
  isplitl [Ho]; · iexact Ho
  isplitl [H0]; · iexists _; isplitr; · ipureintro; exact leaves_0 m c t _
                  iexact H0
  isplitl [H1]; · iexists _; isplitr; · ipureintro; exact leaves_1 m c t _
                  iexact H1
  isplitl [H2]; · iexists _; isplitr; · ipureintro; exact leaves_2 m c t _
                  iexact H2
  isplitl [H3]; · iexists _; isplitr; · ipureintro; exact leaves_3 m c t _
                  iexact H3
  isplitl [H4]; · iexists _; isplitr; · ipureintro; exact leaves_4 m c t _
                  iexact H4
  iexists X; isplitr; · ipureintro; exact (rel_5 m c t _ X).mpr hX
  iexact H5

/-- What the launch hands the region is the invariant before the first point, -/
theorem hin (c : Dev nD) : Pipeline.ΦA spec0 c ⊢ (rdat m c).Φ 0 := by
  rw [show (rdat m c).Φ 0 = Phi m c 0 from rfl, Phi_first m c 0 rfl]

/-- and the invariant after the last point gives it back. -/
theorem hout (c : Dev nD) : (rdat m c).Φ (Fin.last cfg0.N) ⊢ Pipeline.ΦA spec0 c := by
  rw [show (rdat m c).Φ (Fin.last cfg0.N) = Phi m c (Fin.last cfg0.N) from rfl, Phi_end m c _ (by rw [Fin.val_last])]

/-! ## The run and the frame -/

set_option backward.isDefEq.respectTransparency.types false in
/-- Every weakly fair execution of @main terminates, every input array of the pipeline unchanged, the output array at
    some contents the relation allows, every other unscoped buffer at its region-entry contents. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The frame: the run terminates without a fault and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      (Pipeline.RDat.FramePost.arr_in h c 3 rfl).trans ((A_eq m c 3).trans (V_main_arg3 m c)),
      ((h c).2 main_arg4 (Pipeline.mem_restRefs_of main_arg4 (by decide) (by decide))).trans (V_main_arg4 m c)⟩) (run_main m ρ)

end Cert.KernelIdeal.Stagger

end
-- ==== Proof.RouterSpec.lean ====
/-
  The router's arithmetic on one token, over the extended reals. A token's feature row x (2048 numbers) goes through
  the hidden layer h_j = max (sum_k x_k W1_kj + b1_j, 0) (1024 numbers), then the expert logits
  l_e = sum_j h_j W2_je + b2_e (64 numbers), then the softmax over the experts taken against the row's maximum:
  g_e = exp (l_e - max l) / sum_e' exp (l_e' - max l). Both programs compute g for every token; this module only names
  the four functions, so that each program's result can be read against them one token at a time. The zero and the
  minus infinity are kept as the float words both programs print (the same word on both sides is never evaluated).
-/
import Idealize.ShloMosaic.PureOps.Ideal

noncomputable section

namespace Cert.Router

open Idealize.ShloMosaic

/-- Hidden unit j of a token with features x: the affine form clamped below at the float zero. -/
def hidden (x : Fin 2048 → EReal) (w1 : Fin 2048 → Fin 1024 → EReal) (b1 : Fin 1024 → EReal) (j : Fin 1024) : EReal :=
  max ((∑ k : Fin 2048, x k * w1 k j) + b1 j) (Ideal.ofBits .f32 0x00000000#32)

/-- Logit of expert e for a token with features x. -/
def logit (x : Fin 2048 → EReal) (w1 : Fin 2048 → Fin 1024 → EReal) (b1 : Fin 1024 → EReal)
    (w2 : Fin 1024 → Fin 64 → EReal) (b2 : Fin 64 → EReal) (e : Fin 64) : EReal :=
  (∑ j : Fin 1024, hidden x w1 b1 j * w2 j e) + b2 e

/-- The largest of a token's 64 logits, folded from the float minus infinity. -/
def rowMax (l : Fin 64 → EReal) : EReal :=
  (Finset.univ : Finset (Fin 64)).fold max (Ideal.ofBits .f32 0xFF800000#32) l

/-- The softmax weight of expert e among a token's logits l. -/
def gate (l : Fin 64 → EReal) (e : Fin 64) : EReal :=
  Ideal.div (Ideal.exp (l e - rowMax l)) (∑ e' : Fin 64, Ideal.exp (l e' - rowMax l))

end Cert.Router

end
-- ==== Proof.KernelRow.lean ====
/-
  The router kernel's two stored values, read one element at a time over the extended reals. The first is the softmax
  of a block of logits: at row r and expert e it is exp (l_e - max l) / sum_e' exp (l_e' - max l), l the row's 64
  logits. The second is the block of logits itself: at row r and expert e it is
  sum_j max (sum_k x_rk W1_kj + b1_j, 0) W2_je + b2_e. Each non-pointwise operation (the casts that add or drop a unit
  axis, the column broadcast, the reductions along a row, the two matrix products) gets one small lemma at explicit
  coordinates; the two theorems then chain them through the pointwise operations.
-/
import proofs.«174143_g56796647523006_cont_9to1c4b_719_23_alg».proof.Proof.Gen.KernelIdeal.Skeleton
import proofs.«174143_g56796647523006_cont_9to1c4b_719_23_alg».proof.Proof.RouterSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx
open scoped BigOperators

variable [Cert.KernelIdeal.Facts]
open Facts₀ Facts

/-! ## Layout: the column forms -/

/-- A vector [a] cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions along a row -/

/-- The index of a [2048, 64] block over row r with lane k put back is (r, k). -/
theorem lift_row (h : S2048x64.Reduces [1] S2048) (r : Fin 2048) (k : Fin 64) : h.lift (ix1 r) k = ix2 r k := by
  funext c
  refine Fin.ext ?_
  match c with
  | ⟨0, _⟩ => rfl
  | ⟨1, _⟩ => rfl

/-- The lane maximum of a [2048, 64] block at row r: the fold of max over the row's 64 entries from the initial word. -/
theorem rowMax_at (src : FVec Ideal S2048x64 .f32) (h : S2048x64.Reduces [1] S2048) (hφ : FKind.Formats .f32)
    (hacc : (0xFF800000#32 : BitVec 32) = 0xFF800000#32) (r : Fin 2048) :
    multiReduction (F := Ideal) .maximumf [1] S2048 src 0xFF800000#32 h hφ hacc (ix1 r)
      = (Finset.univ : Finset (Fin 64)).fold max (Ideal.ofBits .f32 0xFF800000#32) (fun e => src (ix2 r e)) := by
  refine (Ideal.multiReduction_maximumf_single src 0xFF800000#32 h hφ hacc (ix1 r)).trans ?_
  have hf : (src ∘ h.lift (ix1 r)) = fun e : Fin 64 => src (ix2 r e) := funext fun e => congrArg src (lift_row h r e)
  rw [hf]
  rfl

/-- The lane sum of a [2048, 64] block at row r: the sum of the row's 64 entries. -/
theorem rowSum_at (src : FVec Ideal S2048x64 .f32) (h : S2048x64.Reduces [1] S2048) (hφ : FKind.Formats .f32)
    (hacc : (0x00000000#32 : BitVec 32) = 0x00000000#32) (r : Fin 2048) :
    multiReduction (F := Ideal) .add [1] S2048 src 0x00000000#32 h hφ hacc (ix1 r)
      = ∑ e : Fin 64, src (ix2 r e) := by
  refine (Ideal.multiReduction_add_single src 0x00000000#32 h hφ hacc (ix1 r)).trans ?_
  exact Finset.sum_congr rfl fun e _ => congrArg src (lift_row h r e)

/-! ## The two matrix products -/

/-- Left operand index of the 1 product, axis 0: the output's row. -/
theorem lhs1_0 (i : S2048x1024.Idx) (q : dot_S2048x2048_S2048x1024_S2048x1024_1_0_0_1_n_n.contr.Idx) :
    (dot_S2048x2048_S2048x1024_S2048x1024_1_0_0_1_n_n.lhsIdx i q 0).val = (i 0).val := by
  unfold DotDims.lhsIdx
  rw [dif_neg (show ¬(0 : Fin S2048x2048.rank) ∈ dot_S2048x2048_S2048x1024_S2048x1024_1_0_0_1_n_n.lhsBatch by decide), dif_pos (show (0 : Fin S2048x2048.rank) ∈ dot_S2048x2048_S2048x1024_S2048x1024_1_0_0_1_n_n.lhsNonContracting by decide)]
  rfl
/-- Left operand index of the 1 product, axis 1: the contracted coordinate. -/
theorem lhs1_1 (i : S2048x1024.Idx) (q : dot_S2048x2048_S2048x1024_S2048x1024_1_0_0_1_n_n.contr.Idx) :
    (dot_S2048x2048_S2048x1024_S2048x1024_1_0_0_1_n_n.lhsIdx i q 1).val = (q ⟨0, by decide⟩).val :=
  dot_S2048x2048_S2048x1024_S2048x1024_1_0_0_1_n_n.lhsIdx_val_of_single rfl i q
/-- Right operand index of the 1 product, axis 0: the contracted coordinate. -/
theorem rhs1_0 (i : S2048x1024.Idx) (q : dot_S2048x2048_S2048x1024_S2048x1024_1_0_0_1_n_n.contr.Idx) :
    (dot_S2048x2048_S2048x1024_S2048x1024_1_0_0_1_n_n.rhsIdx i q 0).val = (q ⟨0, by decide⟩).val :=
  dot_S2048x2048_S2048x1024_S2048x1024_1_0_0_1_n_n.rhsIdx_val_of_single rfl i q
/-- Right operand index of the 1 product, axis 1: the output's column. -/
theorem rhs1_1 (i : S2048x1024.Idx) (q : dot_S2048x2048_S2048x1024_S2048x1024_1_0_0_1_n_n.contr.Idx) :
    (dot_S2048x2048_S2048x1024_S2048x1024_1_0_0_1_n_n.rhsIdx i q 1).val = (i 1).val := by
  unfold DotDims.rhsIdx
  rw [dif_neg (show ¬(1 : Fin S2048x1024.rank) ∈ dot_S2048x2048_S2048x1024_S2048x1024_1_0_0_1_n_n.rhsBatch by decide), dif_pos (show (1 : Fin S2048x1024.rank) ∈ dot_S2048x2048_S2048x1024_S2048x1024_1_0_0_1_n_n.rhsNonContracting by decide)]
  rfl

/-- The first product into a zero accumulator at (r, c): the sum over the 2048 features. -/
theorem matmul1_at (a : FVec Ideal S2048x2048 .bf16) (b : FVec Ideal S2048x1024 .bf16) (r : Fin 2048) (c : Fin 1024) :
    matmul dot_S2048x2048_S2048x1024_S2048x1024_1_0_0_1_n_n none a b (constant (F := Ideal) S2048x1024 .f32 0x00000000#32) (ix2 r c)
      = ∑ k : Fin 2048, a (ix2 r k) * b (ix2 k c) := by
  simp only [matmul]
  rw [Ideal.matmul_constant_zero_apply, ← Equiv.sum_comp (contrEquiv1 dot_S2048x2048_S2048x1024_S2048x1024_1_0_0_1_n_n 2048 rfl rfl).symm]
  refine Finset.sum_congr rfl fun k _ => ?_
  have hk := contrEquiv1_symm_val dot_S2048x2048_S2048x1024_S2048x1024_1_0_0_1_n_n 2048 rfl rfl k
  have el : dot_S2048x2048_S2048x1024_S2048x1024_1_0_0_1_n_n.lhsIdx (ix2 r c) ((contrEquiv1 dot_S2048x2048_S2048x1024_S2048x1024_1_0_0_1_n_n 2048 rfl rfl).symm k) = ix2 r k := funext fun ax => Fin.ext (by
    match ax with
    | ⟨0, _⟩ => exact lhs1_0 _ _
    | ⟨1, _⟩ => exact (lhs1_1 _ _).trans hk)
  have er : dot_S2048x2048_S2048x1024_S2048x1024_1_0_0_1_n_n.rhsIdx (ix2 r c) ((contrEquiv1 dot_S2048x2048_S2048x1024_S2048x1024_1_0_0_1_n_n 2048 rfl rfl).symm k) = ix2 k c := funext fun ax => Fin.ext (by
    match ax with
    | ⟨0, _⟩ => exact (rhs1_0 _ _).trans hk
    | ⟨1, _⟩ => exact rhs1_1 _ _)
  rw [el, er]

/-- Left operand index of the 2 product, axis 0: the output's row. -/
theorem lhs2_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
/-- Left operand index of the 2 product, axis 1: the contracted coordinate. -/
theorem lhs2_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
/-- Right operand index of the 2 product, axis 0: the contracted coordinate. -/
theorem rhs2_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
/-- Right operand index of the 2 product, axis 1: the output's column. -/
theorem rhs2_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The second product into a zero accumulator at (r, c): the sum over the 1024 hidden units. -/
theorem matmul2_at (a : FVec Ideal S2048x1024 .bf16) (b : FVec Ideal S1024x64 .bf16) (r : Fin 2048) (c : Fin 64) :
    matmul dot_S2048x1024_S1024x64_S2048x64_1_0_0_1_n_n none a b (constant (F := Ideal) S2048x64 .f32 0x00000000#32) (ix2 r c)
      = ∑ k : Fin 1024, a (ix2 r k) * b (ix2 k c) := by
  simp only [matmul]
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 r c) ((contrEquiv1 dot_S2048x1024_S1024x64_S2048x64_1_0_0_1_n_n 1024 rfl rfl).symm k) = ix2 r k := funext fun ax => Fin.ext (by
    match ax with
    | ⟨0, _⟩ => exact lhs2_0 _ _
    | ⟨1, _⟩ => exact (lhs2_1 _ _).trans hk)
  have er : dot_S2048x1024_S1024x64_S2048x64_1_0_0_1_n_n.rhsIdx (ix2 r c) ((contrEquiv1 dot_S2048x1024_S1024x64_S2048x64_1_0_0_1_n_n 1024 rfl rfl).symm k) = ix2 k c := funext fun ax => Fin.ext (by
    match ax with
    | ⟨0, _⟩ => exact (rhs2_0 _ _).trans hk
    | ⟨1, _⟩ => exact rhs2_1 _ _)
  rw [el, er]

/-! ## The softmax's two columns -/

/-- The exponential read at an index. -/
theorem exp_at {s : Shape} {φ : FTy} (a : FVec Ideal s φ) (i : s.Idx) : exp a i = Ideal.exp (a i) := rfl

/-- The row maxima, made a column and spread over the 64 lanes, read at (r, e): row r's maximum. -/
theorem colMax_at (src : FVec Ideal S2048x64 .f32) (h : S2048x64.Reduces [1] S2048) (hφ : FKind.Formats .f32)
    (hacc : (0xFF800000#32 : BitVec 32) = 0xFF800000#32) (hc : S2048.ShapeCasts S2048x1)
    (hb : S2048x1.Broadcasts S2048x64) (r : Fin 2048) (e : Fin 64) :
    broadcastTo S2048x64 (shapeCast S2048x1 (multiReduction (F := Ideal) .maximumf [1] S2048 src 0xFF800000#32 h hφ hacc) hc) hb (ix2 r e)
      = (Finset.univ : Finset (Fin 64)).fold max (Ideal.ofBits .f32 0xFF800000#32) (fun e' => src (ix2 r e')) := by
  rw [broadcastTo_a1_ab_apply, shapeCast_a_a1_apply]
  exact rowMax_at src h hφ hacc r

/-- The row sums, made a column and spread over the 64 lanes, read at (r, e): row r's sum. -/
theorem colSum_at (src : FVec Ideal S2048x64 .f32) (h : S2048x64.Reduces [1] S2048) (hφ : FKind.Formats .f32)
    (hacc : (0x00000000#32 : BitVec 32) = 0x00000000#32) (hc : S2048.ShapeCasts S2048x1)
    (hb : S2048x1.Broadcasts S2048x64) (r : Fin 2048) (e : Fin 64) :
    broadcastTo S2048x64 (shapeCast S2048x1 (multiReduction (F := Ideal) .add [1] S2048 src 0x00000000#32 h hφ hacc) hc) hb (ix2 r e)
      = ∑ e' : Fin 64, src (ix2 r e') := by
  rw [broadcastTo_a1_ab_apply, shapeCast_a_a1_apply]
  exact rowSum_at src h hφ hacc r

/-- An entry's exponential against its row's maximum, read at (r, e) of the block cast from [1, 2048, 64]. -/
theorem expShift_at (v3 : Vec Ideal S1x2048x64 .f32) (hs : S1x2048x64.ShapeCasts S2048x64)
    (h : S2048x64.Reduces [1] S2048) (hφ : FKind.Formats .f32) (hacc : (0xFF800000#32 : BitVec 32) = 0xFF800000#32)
    (hc : S2048.ShapeCasts S2048x1) (hb : S2048x1.Broadcasts S2048x64) (r : Fin 2048) (e : Fin 64) :
    exp (subf (shapeCast S2048x64 v3 hs)
        (broadcastTo S2048x64 (shapeCast S2048x1
          (multiReduction (F := Ideal) .maximumf [1] S2048 (shapeCast S2048x64 v3 hs) 0xFF800000#32 h hφ hacc) hc) hb)) (ix2 r e)
      = Ideal.exp (v3 (ix3 (0 : Fin 1) r e) - Cert.Router.rowMax (fun e' => v3 (ix3 (0 : Fin 1) r e'))) := by
  rw [exp_at, subf_apply, colMax_at, shapeCast_1ab_ab_apply]
  unfold Cert.Router.rowMax
  simp only [shapeCast_1ab_ab_apply]

/-! ## The two stored values at an index -/

/-- The block of logits at (0, r, e): expert e's logit of the token whose features are row r. -/
theorem logits_at (v18 : Vec Ideal S2048x2048 .f32) (v20 : Vec Ideal S2048x1024 .f32) (v23 : Vec Ideal S1x1024 .f32)
    (v30 : Vec Ideal S1024x64 .f32) (v33 : Vec Ideal S1x64 .f32) (r : Fin 2048) (e : Fin 64) :
    k0_pay2 (F := Ideal) v18 v20 v23 v30 v33 (ix3 (0 : Fin 1) r e)
      = Cert.Router.logit (fun k => v18 (ix2 r k)) (fun k j => v20 (ix2 k j)) (fun j => v23 (ix2 (0 : Fin 1) j))
          (fun j e' => v30 (ix2 j e')) (fun e' => v33 (ix2 (0 : Fin 1) e')) e := by
  unfold k0_pay2 Cert.Router.logit Cert.Router.hidden
  rw [shapeCast_ab_1ab_apply, addf_apply, matmul2_at, broadcastTo_1b_ab_apply, shapeCast_self]
  simp only [truncf_apply, maximumf_apply, addf_apply, matmul1_at, broadcastTo_1b_ab_apply, shapeCast_self, broadcast_apply]
  rfl

/-- The softmax block at (r, e): the gate of expert e among row r's 64 logits. -/
theorem gate_at (v3 : Vec Ideal S1x2048x64 .f32) (r : Fin 2048) (e : Fin 64) :
    k0_pay1 (F := Ideal) v3 (ix2 r e) = Cert.Router.gate (fun e' => v3 (ix3 (0 : Fin 1) r e')) e := by
  unfold k0_pay1 Cert.Router.gate
  rw [divf_apply, colSum_at]
  exact congrArg₂ Ideal.div (expShift_at v3 _ _ _ _ _ _ r e)
    (Finset.sum_congr rfl fun e' _ => expShift_at v3 _ _ _ _ _ _ r e')

end Cert.KernelIdeal.Row

end
-- ==== Proof.KernelIdealValue.lean ====
/-
  From the run of the staggered router to its whole output array, over the extended reals. The grid has nine points for
  eight blocks of 2048 tokens; after each point but the first the pipeline writes the output's buffer back to block
  t - 1 of the [16384, 64] result, and what the body left there is the softmax of the logits that point t - 1 computed
  from block t - 1 of the features. Four steps: the relation the run proves for the output window determines the array
  (it names what every point after the first leaves); what such a point writes back is its block of ONE function of the
  region-entry arrays, token by token the gate of the logits of that token's feature row; the eight blocks written back
  fill the array, so the array ends at that function; and the region-entry arrays are the launch's, the two bias rows
  being the bias vectors cast to one row. The result: every weakly fair execution terminates with the output at
  gate (logit (row i of the features)) at (i, e), and the five arguments as launched.
-/
import proofs.«174143_g56796647523006_cont_9to1c4b_719_23_alg».proof.Proof.KernelIdealLaunch
import proofs.«174143_g56796647523006_cont_9to1c4b_719_23_alg».proof.Proof.KernelRow
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Stagger

open Cert.KernelIdeal Cert.KernelIdeal.Gen Idealize.ShloMosaic Idealize.ShloMosaic.TcCoe Idealize.SL.Sem Idealize.ShloMosaic.ValueIdx
open Idealize.ShloMosaic.Pipeline (Dat RDat)

variable (m : (ℓ : Loc nD τ sig) → Buf (Elt Ideal) ℓ) (ρ : Dev nD → PrngReg)

/-! ## The schedule of the output window -/

/-- The output's blocks are written back after every point but the first. -/
theorem flush_iff : ∀ t : Fin cfg0.N, (cfg0.win 5).flush t = true ↔ t.val ≠ 0 :=
  (by decide +kernel : ∀ t : Fin grid0.N, win0_5.flush t = true ↔ t.val ≠ 0)

/-- The printed index maps over the grid. -/
theorem idx_facts : ∀ t : Fin cfg0.N,
    win0_5.index t (0 : Fin 2) = t.val - 1 ∧ win0_5.index t (1 : Fin 2) = 0
    ∧ win0_0.index t (0 : Fin 2) = min t.val 7 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## The relation determines the array -/

/-- What the output array may hold after the write-backs below n is what the named contents give: at a point that
    writes back, the relation names what the body left (the point is not the first). -/
theorem arr_of_rel (c : Dev nD) : ∀ (n : ℕ) (Fb : Buf (Elt Ideal) ((cfg0.win 5).arr.view.loc (c.tc : Thread nD τ))),
    (rdat m c).ArrAt 5 n Fb → Fb = (dats m 0 c).arrAt 5 n
  | 0, _, h => h.trans ((A_eq m c 5).trans (datsA_eq m c 5).symm)
  | n + 1, Fb, h => by
    by_cases ht : n < cfg0.N
    · have hR := (rdat m c).ArrAt_succ 5 ⟨n, ht⟩
      have hD := (dats m 0 c).arrAt_succ 5 ⟨n, ht⟩
      dsimp only at hR hD
      rw [hR] at h; rw [hD]
      by_cases hfl : (cfg0.win 5).flush ⟨n, ht⟩ = true
      · rw [if_pos hfl] at h ⊢
        obtain ⟨F₀, X, hF₀, ⟨Y, _, hX⟩, rfl⟩ := h
        have hXe : X = weightsAt m c ⟨n, ht⟩ := (rel_5 m c ⟨n, ht⟩ Y X).mp hX ((flush_iff ⟨n, ht⟩).mp hfl)
        rw [arr_of_rel c n F₀ hF₀, hXe, ← after_5 m c ⟨n, ht⟩]
      · rw [if_neg hfl] at h ⊢; exact arr_of_rel c n Fb h
    · have hN : cfg0.N ≤ n := Nat.not_lt.mp ht
      rw [(rdat m c).ArrAt_stable 5 (n + 1) (by omega), ← (rdat m c).ArrAt_stable 5 n hN] at h
      rw [(dats m 0 c).arrAt_stable 5 (n + 1) (by omega), ← (dats m 0 c).arrAt_stable 5 n hN]
      exact arr_of_rel c n Fb h

/-! ## The blocks a point reads, as parts of the region-entry arrays -/

/-- The feature block of point t: rows min(t, 7) · 2048 … of the feature array. -/
theorem iblk0_apply (c : Dev nD) (t : Fin cfg0.N) (r k : Fin 2048) (i : Fin 16384) (hi : i.val = min t.val 7 * 2048 + r.val) :
    (iblk m c 0 t : Vec Ideal S2048x2048 .f32) (ix2 r k) = (V m c main_arg0 : S16384x2048.Idx → EReal) (ix2 i k) := by
  obtain ⟨-, -, e0, e1, -⟩ := idx_facts t
  unfold iblk
  rw [View.read_apply]
  show V m c main_arg0 (((cfg0.win 0).blk t).view.emb (ix2 r k)) = V m c main_arg0 (ix2 i k)
  congr 1
  funext a; apply Fin.ext
  match a with
  | ⟨0, _⟩ => show win0_0.index t (0 : Fin 2) * 2048 + 1 * r.val = i.val; rw [e0, hi]; omega
  | ⟨1, _⟩ => show win0_0.index t (1 : Fin 2) * 2048 + 1 * k.val = k.val; rw [e1]; omega

/-- The first weight matrix is staged whole. -/
theorem iblk1_eq (c : Dev nD) (t : Fin cfg0.N) : (iblk m c 1 t : Vec Ideal S2048x1024 .f32) = V m c main_arg1 := by
  obtain ⟨-, -, -, -, e0, e1, -⟩ := idx_facts t
  unfold iblk
  funext y
  rw [View.read_apply]
  show V m c main_arg1 (((cfg0.win 1).blk t).view.emb y) = V m c main_arg1 y
  congr 1
  funext a; apply Fin.ext
  match a with
  | ⟨0, _⟩ => show win0_1.index t (0 : Fin 2) * 2048 + 1 * (y 0).val = (y 0).val; rw [e0]; omega
  | ⟨1, _⟩ => show win0_1.index t (1 : Fin 2) * 1024 + 1 * (y 1).val = (y 1).val; rw [e1]; omega

/-- The first bias row is staged whole. -/
theorem iblk2_eq (c : Dev nD) (t : Fin cfg0.N) : (iblk m c 2 t : Vec Ideal S1x1024 .f32) = V m c main_v0 := by
  obtain ⟨-, -, -, -, -, -, e0, e1, -⟩ := idx_facts t
  unfold iblk
  funext y
  rw [View.read_apply]
  show V m c main_v0 (((cfg0.win 2).blk t).view.emb y) = V m c main_v0 y
  congr 1
  funext a; apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- The second weight matrix is staged whole. -/
theorem iblk3_eq (c : Dev nD) (t : Fin cfg0.N) : (iblk m c 3 t : Vec Ideal S1024x64 .f32) = V m c main_arg3 := by
  obtain ⟨-, -, -, -, -, -, -, -, e0, e1, -⟩ := idx_facts t
  unfold iblk
  funext y
  rw [View.read_apply]
  show V m c main_arg3 (((cfg0.win 3).blk t).view.emb y) = V m c main_arg3 y
  congr 1
  funext a; apply Fin.ext
  match a with
  | ⟨0, _⟩ => show win0_3.index t (0 : Fin 2) * 1024 + 1 * (y 0).val = (y 0).val; rw [e0]; omega
  | ⟨1, _⟩ => show win0_3.index t (1 : Fin 2) * 64 + 1 * (y 1).val = (y 1).val; rw [e1]; omega

/-- The second bias row is staged whole. -/
theorem iblk4_eq (c : Dev nD) (t : Fin cfg0.N) : (iblk m c 4 t : Vec Ideal S1x64 .f32) = V m c main_v1 := by
  obtain ⟨-, -, -, -, -, -, -, -, -, -, e0, e1⟩ := idx_facts t
  unfold iblk
  funext y
  rw [View.read_apply]
  show V m c main_v1 (((cfg0.win 4).blk t).view.emb y) = V m c main_v1 y
  congr 1
  funext a; apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-! ## One function of the region-entry arrays for the whole output -/

/-- The softmax weight of token i for expert e, from the feature array, the two weight matrices and the two bias rows. -/
def tokenW (A0 : S16384x2048.Idx → EReal) (A1 : S2048x1024.Idx → EReal) (B1 : S1x1024.Idx → EReal)
    (A3 : S1024x64.Idx → EReal) (B2 : S1x64.Idx → EReal) (i : Fin 16384) (e : Fin 64) : EReal :=
  Cert.Router.gate (fun e' => Cert.Router.logit (fun k => A0 (ix2 i k)) (fun k j => A1 (ix2 k j))
    (fun j => B1 (ix2 (0 : Fin 1) j)) (fun j e'' => A3 (ix2 j e'')) (fun e'' => B2 (ix2 (0 : Fin 1) e'')) e') e

/-- The softmax of the logits of a block of 2048 tokens is, row by row, each token's weights. -/
theorem weights_of_blocks (A0 : S16384x2048.Idx → EReal) (A1 : S2048x1024.Idx → EReal) (B1 : S1x1024.Idx → EReal)
    (A3 : S1024x64.Idx → EReal) (B2 : S1x64.Idx → EReal)
    (x0 : Vec Ideal S2048x2048 .f32) (x1 : Vec Ideal S2048x1024 .f32) (x2 : Vec Ideal S1x1024 .f32)
    (x3 : Vec Ideal S1024x64 .f32) (x4 : Vec Ideal S1x64 .f32)
    (r : Fin 2048) (e : Fin 64) (i : Fin 16384)
    (h0 : ∀ k : Fin 2048, x0 (ix2 r k) = A0 (ix2 i k)) (h1 : x1 = A1) (h2 : x2 = B1) (h3 : x3 = A3) (h4 : x4 = B2) :
    k0_pay1 (F := Ideal) (k0_pay2 (F := Ideal) x0 x1 x2 x3 x4) (ix2 r e) = tokenW A0 A1 B1 A3 B2 i e := by
  subst h1 h2 h3 h4
  rw [Row.gate_at]
  unfold tokenW
  simp only [Row.logits_at]
  rw [show (fun k => x0 (ix2 r k)) = fun k => A0 (ix2 i k) from funext h0]

/-- The whole output array as one function of the region-entry arrays. -/
def GV (c : Dev nD) : S16384x64.Idx → EReal := fun i =>
  tokenW (V m c main_arg0) (V m c main_arg1) (V m c main_v0) (V m c main_arg3) (V m c main_v1) (i 0) (i 1)

/-- What a point after the first writes back is its block of that function. -/
theorem flushed_eq (c : Dev nD) (t : Fin cfg0.N) (hf : (cfg0.win 5).flush t = true) :
    (dats m 0 c).flushed 5 t = ((cfg0.win 5).blk t).view.read (Elt Ideal) (GV m c) := by
  show (cfg0.win 5).cut (grid0.coords t) ((dats m 0 c).after 5 t) = _
  rw [after_5]
  have ht0 : t.val ≠ 0 := (flush_iff t).mp hf
  have hN : t.val < 9 := lt_of_lt_of_eq t.isLt N_0
  obtain ⟨e0, e1, -⟩ := idx_facts t
  funext y
  rw [View.read_apply]
  obtain ⟨p, q, rfl⟩ : ∃ (p : Fin 2048) (q : Fin 64), y = ix2 p q := ⟨y 0, y 1, eq_ix2 y⟩
  show weightsAt m c t (ix2 p q) = GV m c (((cfg0.win 5).blk t).view.emb (ix2 p q))
  have hemb : ((cfg0.win 5).blk t).view.emb (ix2 p q)
      = (ix2 (⟨(t.val - 1) * 2048 + p.val, by have := p.isLt; omega⟩ : Fin 16384) q : S16384x64.Idx) := by
    funext a; apply Fin.ext
    match a with
    | ⟨0, _⟩ => show win0_5.index t (0 : Fin 2) * 2048 + 1 * p.val = (t.val - 1) * 2048 + p.val; rw [e0]; omega
    | ⟨1, _⟩ => show win0_5.index t (1 : Fin 2) * 64 + 1 * q.val = q.val; rw [e1]; omega
  rw [hemb]
  unfold weightsAt logitsAt GV
  refine weights_of_blocks _ _ _ _ _ _ _ _ _ _ p q _ (fun k => ?_) (iblk1_eq m c _) (iblk2_eq m c _) (iblk3_eq m c _) (iblk4_eq m c _)
  refine iblk0_apply m c _ p k _ ?_
  show (t.val - 1) * 2048 + p.val = min (t.val - 1) 7 * 2048 + p.val
  rw [Nat.min_eq_left (by omega)]

/-! ## The blocks written back fill the array -/

/-- An index of the output array is in point t's block iff each coordinate is in the block's range on its axis. -/
theorem mem_blk (t : Fin cfg0.N) (i : S16384x64.Idx) :
    i ∈ ((cfg0.win 5).blk t).view.set ↔ ∀ a : Fin 2, win0_5.index t a * S2048x64.size a ≤ (i a).val
      ∧ (i a).val < win0_5.index t a * S2048x64.size a + S2048x64.size a := by
  show i ∈ ((View.whole main_v2).slice (win0_5.rect t)).set ↔ _
  rw [View.set_slice_whole, Rect.mem_set_unit]
  exact Iff.rfl

/-- Row r of the output lies in the block written back after point r / 2048 + 1. -/
theorem cover (i : S16384x64.Idx) : ∃ t : Fin cfg0.N, (cfg0.win 5).flush t = true ∧ i ∈ ((cfg0.win 5).blk t).view.set := by
  have hi0 : (i 0).val < 16384 := (i 0).isLt
  have hi1 : (i 1).val < 64 := (i 1).isLt
  have hN : cfg0.N = 9 := N_0
  obtain ⟨t, ht⟩ : ∃ t : Fin cfg0.N, t.val = (i 0).val / 2048 + 1 := ⟨⟨(i 0).val / 2048 + 1, by rw [hN]; omega⟩, rfl⟩
  obtain ⟨e0, e1, -⟩ := idx_facts t
  refine ⟨t, (flush_iff t).mpr (by omega), ?_⟩
  rw [mem_blk]
  intro a
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 64 ≤ (i 1).val ∧ (i 1).val < win0_5.index t (1 : Fin 2) * 64 + 64
    rw [e1]; omega

/-- So after the last write-back the output array is that function. -/
theorem final (c : Dev nD) : (dats m 0 c).arrAt 5 cfg0.N = GV m c :=
  (dats m 0 c).arrAt_eq_of_cover 5 (GV m c) (flushed_eq m c) cover

/-! ## The region-entry arrays are the launch's -/

/-- The first bias row as the region finds it: the bias vector cast to one row. -/
theorem V_v0 (c : Dev nD) : (V m c main_v0 : S1x1024.Idx → EReal)
    = shapeCast S1x1024 (m ((c.tc : Thread nD τ).loc main_arg2) : S1024.Idx → EReal) shapeCasts_S1024_S1x1024 := by
  dsimp only [Gen.V, Gen.hostOps0]; after_results; rfl

/-- The second bias row as the region finds it: the bias vector cast to one row. -/
theorem V_v1 (c : Dev nD) : (V m c main_v1 : S1x64.Idx → EReal)
    = shapeCast S1x64 (m ((c.tc : Thread nD τ).loc main_arg4) : S64.Idx → EReal) shapeCasts_S64_S1x64 := by
  dsimp only [Gen.V, Gen.hostOps0]; after_results; rfl

/-- The first bias row at (0, j) is the bias vector at j. -/
theorem V_v0_apply (c : Dev nD) (j : Fin 1024) :
    (V m c main_v0 : S1x1024.Idx → EReal) (ix2 (0 : Fin 1) j) = (m ((c.tc : Thread nD τ).loc main_arg2) : S1024.Idx → EReal) (ix1 j) := by
  rw [V_v0]; exact shapeCast_a_1a_apply _ _ _ _

/-- The second bias row at (0, e) is the bias vector at e. -/
theorem V_v1_apply (c : Dev nD) (j : Fin 64) :
    (V m c main_v1 : S1x64.Idx → EReal) (ix2 (0 : Fin 1) j) = (m ((c.tc : Thread nD τ).loc main_arg4) : S64.Idx → EReal) (ix1 j) := by
  rw [V_v1]; exact shapeCast_a_1a_apply _ _ _ _

/-! ## The run -/

/-- The router's weights of every token, from the launch contents of the five argument arrays. -/
def tokenWeight (c : Dev nD) (i : Fin 16384) (e : Fin 64) : EReal :=
  Cert.Router.gate (fun e' => Cert.Router.logit
    (fun k => m ((c.tc : Thread nD τ).loc main_arg0) (ix2 i k))
    (fun k j => m ((c.tc : Thread nD τ).loc main_arg1) (ix2 k j))
    (fun j => m ((c.tc : Thread nD τ).loc main_arg2) (ix1 j))
    (fun j e'' => m ((c.tc : Thread nD τ).loc main_arg3) (ix2 j e''))
    (fun e'' => m ((c.tc : Thread nD τ).loc main_arg4) (ix1 e'')) e') e

/-- The output array after the run. -/
def weights (c : Dev nD) : Buf (Elt Ideal) ((c.tc : Thread nD τ).loc main_v2) := fun i => tokenWeight m c (i 0) (i 1)

/-- A token's weight depends on the five arrays only through the entries it reads. -/
theorem tokenW_congr (A0 : S16384x2048.Idx → EReal) (A1 : S2048x1024.Idx → EReal) (B1 : S1x1024.Idx → EReal)
    (A3 : S1024x64.Idx → EReal) (B2 : S1x64.Idx → EReal) (p : Fin 16384) (q : Fin 64)
    (x : Fin 2048 → EReal) (w1 : Fin 2048 → Fin 1024 → EReal) (b1 : Fin 1024 → EReal) (w2 : Fin 1024 → Fin 64 → EReal) (b2 : Fin 64 → EReal)
    (hx : ∀ k, A0 (ix2 p k) = x k) (hw1 : ∀ k j, A1 (ix2 k j) = w1 k j) (hb1 : ∀ j, B1 (ix2 (0 : Fin 1) j) = b1 j)
    (hw2 : ∀ j e, A3 (ix2 j e) = w2 j e) (hb2 : ∀ e, B2 (ix2 (0 : Fin 1) e) = b2 e) :
    tokenW A0 A1 B1 A3 B2 p q = Cert.Router.gate (fun e' => Cert.Router.logit x w1 b1 w2 b2 e') q := by
  obtain rfl : x = fun k => A0 (ix2 p k) := funext fun k => (hx k).symm
  obtain rfl : w1 = fun k j => A1 (ix2 k j) := funext fun k => funext fun j => (hw1 k j).symm
  obtain rfl : b1 = fun j => B1 (ix2 (0 : Fin 1) j) := funext fun j => (hb1 j).symm
  obtain rfl : w2 = fun j e => A3 (ix2 j e) := funext fun j => funext fun e => (hw2 j e).symm
  obtain rfl : b2 = fun e => B2 (ix2 (0 : Fin 1) e) := funext fun e => (hb2 e).symm
  rfl

/-- A token's weight from the region-entry arrays is its weight from the launch contents. -/
theorem tokenW_entry (c : Dev nD) (p : Fin 16384) (q : Fin 64) :
    tokenW (V m c main_arg0) (V m c main_arg1) (V m c main_v0) (V m c main_arg3) (V m c main_v1) p q = tokenWeight m c p q :=
  tokenW_congr _ _ _ _ _ p q _ _ _ _ _ (fun k => congrFun (V_main_arg0 m c) _) (fun k j => congrFun (V_main_arg1 m c) _)
    (V_v0_apply m c) (fun j e => congrFun (V_main_arg3 m c) _) (V_v1_apply m c)

/-- The function of the region-entry arrays is the function of the launch contents. -/
theorem GV_eq (c : Dev nD) : GV m c = weights m c :=
  funext fun i => tokenW_entry m c (i 0) (i 1)

/-- Every weakly fair execution terminates with the output array at the router's weights and the arguments as launched. -/
theorem run_weights : θ_run defs (onTc (τ := τ) (main (F := Ideal))) ⟨m, fun _ => 0, ρ⟩ (fun r => ∀ c : Dev nD,
      r.2.mem ((c.tc : Thread nD τ).loc main_v2) = weights m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(arr_of_rel m c cfg0.N _ ((h c).1 5)).trans ((final m c).trans (GV_eq m c)),
      (Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      (Pipeline.RDat.FramePost.arr_in h c 3 rfl).trans ((A_eq m c 3).trans (V_main_arg3 m c)),
      ((h c).2 main_arg4 (Pipeline.mem_restRefs_of main_arg4 (by decide) (by decide))).trans (V_main_arg4 m c)⟩) (run_main (F := Ideal) m ρ)

end Cert.KernelIdeal.Stagger

end
-- ==== Proof.ReferenceRow.lean ====
/-
  The idealized reference read one token at a time, over the extended reals. Each host operation's result at an index
  is read from its operands at an index, the composed index maps are identified with the
  coordinate constructors, and the row maximum (a fold of max over the 64 experts from the float minus infinity) is read
  by hand. The outcome: the logits are the router's logit function of the token's feature row, and the result is the
  router's gate (softmax against the row maximum) of the token's 64 logits.
-/
import proofs.«174143_g56796647523006_cont_9to1c4b_719_23_alg».proof.Proof.Gen.ReferenceIdeal.Read
import proofs.«174143_g56796647523006_cont_9to1c4b_719_23_alg».proof.Proof.RouterSpec
import Idealize.ShloMosaic.PureOps.Reduce
import Idealize.ShloMosaic.PureOps.Ideal.Laws
import Idealize.ShloMosaic.Lib.ValueIdx
import Mathlib.Data.Finset.Fold

noncomputable section

namespace Cert.ReferenceIdeal.Row

open Cert.ReferenceIdeal Cert.ReferenceIdeal.Read Idealize.ShloMosaic Idealize.ShloMosaic.ValueIdx

/-! ## The composed index maps are the coordinate constructors -/

/-- First product: the left operand of entry (i, j) at contraction coordinate k sits at (i, k). -/
theorem lidx_v0 (i : Fin 16384) (j : Fin 1024) (k : Fin 2048) : lidx_main_v0 (ix2 i j) k = ix2 i k :=
  funext fun a => Fin.ext (by match a with | ⟨0, _⟩ => rfl | ⟨1, _⟩ => rfl)

/-- First product: the right operand of entry (i, j) at contraction coordinate k sits at (k, j). -/
theorem ridx_v0 (i : Fin 16384) (j : Fin 1024) (k : Fin 2048) : ridx_main_v0 (ix2 i j) k = ix2 k j :=
  funext fun a => Fin.ext (by match a with | ⟨0, _⟩ => rfl | ⟨1, _⟩ => rfl)

/-- The first bias, broadcast over the tokens, is read at its column. -/
theorem idx_b1 (i : Fin 16384) (j : Fin 1024) : idx_main_v1 (idx_main_v2 (ix2 i j)) = ix1 j :=
  funext fun a => Fin.ext (by match a with | ⟨0, _⟩ => rfl)

/-- Second product: the left operand of entry (i, e) at contraction coordinate k sits at (i, k). -/
theorem lidx_v5 (i : Fin 16384) (e : Fin 64) (k : Fin 1024) : lidx_main_v5 (ix2 i e) k = ix2 i k :=
  funext fun a => Fin.ext (by match a with | ⟨0, _⟩ => rfl | ⟨1, _⟩ => rfl)

/-- Second product: the right operand of entry (i, e) at contraction coordinate k sits at (k, e). -/
theorem ridx_v5 (i : Fin 16384) (e : Fin 64) (k : Fin 1024) : ridx_main_v5 (ix2 i e) k = ix2 k e :=
  funext fun a => Fin.ext (by match a with | ⟨0, _⟩ => rfl | ⟨1, _⟩ => rfl)

/-- The second bias, broadcast over the tokens, is read at its column. -/
theorem idx_b2 (i : Fin 16384) (e : Fin 64) : idx_main_v6 (idx_main_v7 (ix2 i e)) = ix1 e :=
  funext fun a => Fin.ext (by match a with | ⟨0, _⟩ => rfl)

/-- A per-token quantity broadcast along the row is read at the token (the row maximum). -/
theorem idx_max (i : Fin 16384) (e : Fin 64) : idx_main_v12 (idx_main_v13 (ix2 i e)) = ix1 i :=
  funext fun a => Fin.ext (by match a with | ⟨0, _⟩ => rfl)

/-- The row sum of token i, broadcast along the row, runs over the entries (i, k). -/
theorem idx_sum (i : Fin 16384) (e : Fin 64) (k : Fin 64) :
    idx_main_v16 (idx_main_v17 (idx_main_v18 (ix2 i e))) k = ix2 i k :=
  funext fun a => Fin.ext (by match a with | ⟨0, _⟩ => rfl | ⟨1, _⟩ => rfl)

/-- Token i with expert coordinate k put back on the reduced axis is (i, k). -/
theorem lift_row (h : S16384x64.Reduces [1] S16384) (i : Fin 16384) (k : Fin 64) : h.lift (ix1 i) k = ix2 i k :=
  funext fun a => Fin.ext (by match a with | ⟨0, _⟩ => rfl | ⟨1, _⟩ => rfl)

/-! ## One fact about folds of max -/

/-- A fold of max from a is at least a, so taking the maximum with a once more changes nothing; true for every a. -/
theorem max_fold_max {ι : Type} (s : Finset ι) (a : EReal) (l : ι → EReal) : max a (s.fold max a l) = s.fold max a l :=
  max_eq_right ((Finset.le_fold_max a).2 (Or.inl le_rfl))

/-! ## The stages at an index -/

/-- The hidden layer of token i at unit j. -/
theorem hidden_at (X0 : (⟨S16384x2048, .f32⟩ : BufTy).Contents (Elt Ideal)) (X1 : (⟨S2048x1024, .f32⟩ : BufTy).Contents (Elt Ideal)) (X2 : (⟨S1024, .f32⟩ : BufTy).Contents (Elt Ideal)) (i : Fin 16384) (j : Fin 1024) :
    val_main_v4 (F := Ideal) X0 X1 X2 (ix2 i j)
      = Cert.Router.hidden (fun k => X0 (ix2 i k)) (fun k j => X1 (ix2 k j)) (fun j => X2 (ix1 j)) j := by
  rw [val_main_v4_apply, val_main_v3_apply, val_main_v0_apply, val_main_v2_apply, val_main_v1_apply,
    val_main_call0_v0_apply, val_main_call0_cst_apply]
  unfold Cert.Router.hidden
  simp only [lidx_v0, ridx_v0, idx_b1, Ideal.maximumf_def, Ideal.addf_def, Ideal.ofBits_def]

/-- The logits of token i are the router's logits of its feature row. -/
theorem logits_at (X0 : (⟨S16384x2048, .f32⟩ : BufTy).Contents (Elt Ideal)) (X1 : (⟨S2048x1024, .f32⟩ : BufTy).Contents (Elt Ideal)) (X2 : (⟨S1024, .f32⟩ : BufTy).Contents (Elt Ideal)) (X3 : (⟨S1024x64, .f32⟩ : BufTy).Contents (Elt Ideal)) (X4 : (⟨S64, .f32⟩ : BufTy).Contents (Elt Ideal)) (i : Fin 16384) (e : Fin 64) :
    val_main_v8 (F := Ideal) X0 X1 X2 X3 X4 (ix2 i e)
      = Cert.Router.logit (fun k => X0 (ix2 i k)) (fun k j => X1 (ix2 k j)) (fun j => X2 (ix1 j)) (fun j e' => X3 (ix2 j e')) (fun e' => X4 (ix1 e')) e := by
  rw [val_main_v8_apply, val_main_v5_apply, val_main_v7_apply, val_main_v6_apply]
  unfold Cert.Router.logit
  simp only [lidx_v5, ridx_v5, idx_b2, hidden_at, Ideal.addf_def]

/-- The reduction over the experts at token i is the fold of max over the token's 64 logits from minus infinity. -/
theorem reduce_max_at (X0 : (⟨S16384x2048, .f32⟩ : BufTy).Contents (Elt Ideal)) (X1 : (⟨S2048x1024, .f32⟩ : BufTy).Contents (Elt Ideal)) (X2 : (⟨S1024, .f32⟩ : BufTy).Contents (Elt Ideal)) (X3 : (⟨S1024x64, .f32⟩ : BufTy).Contents (Elt Ideal)) (X4 : (⟨S64, .f32⟩ : BufTy).Contents (Elt Ideal)) (i : Fin 16384) :
    val_main_v9 (F := Ideal) X0 X1 X2 X3 X4 (ix1 i)
      = (Finset.univ : Finset (Fin 64)).fold max (Ideal.ofBits .f32 0xFF800000#32)
          (fun e' => val_main_v8 (F := Ideal) X0 X1 X2 X3 X4 (ix2 i e')) := by
  unfold val_main_v9
  refine (Host.reduce_eq_fold_single FloatOps.maximumf _ _ _ (by decide : S16384x64.Reduces [1] S16384) _ (ix1 i)).trans ?_
  exact congrArg (fun f : Fin 64 → EReal => (Finset.univ : Finset (Fin 64)).fold max (Ideal.ofBits .f32 0xFF800000#32) f)
    (funext fun k => congrArg (val_main_v8 (F := Ideal) X0 X1 X2 X3 X4) (lift_row _ i k))

/-- The row maximum the reference subtracts is the router's row maximum of the token's logits. -/
theorem rowmax_at (X0 : (⟨S16384x2048, .f32⟩ : BufTy).Contents (Elt Ideal)) (X1 : (⟨S2048x1024, .f32⟩ : BufTy).Contents (Elt Ideal)) (X2 : (⟨S1024, .f32⟩ : BufTy).Contents (Elt Ideal)) (X3 : (⟨S1024x64, .f32⟩ : BufTy).Contents (Elt Ideal)) (X4 : (⟨S64, .f32⟩ : BufTy).Contents (Elt Ideal)) (i : Fin 16384) :
    val_main_v11 (F := Ideal) X0 X1 X2 X3 X4 (ix1 i)
      = Cert.Router.rowMax (fun e' => val_main_v8 (F := Ideal) X0 X1 X2 X3 X4 (ix2 i e')) := by
  rw [val_main_v11_apply, val_main_v10_apply, val_main_cst_0_apply, reduce_max_at]
  unfold Cert.Router.rowMax
  simp only [Ideal.maximumf_def, Ideal.ofBits_def]
  exact max_fold_max _ _ _

/-- The shifted exponential of token i at expert e. -/
theorem exp_at (X0 : (⟨S16384x2048, .f32⟩ : BufTy).Contents (Elt Ideal)) (X1 : (⟨S2048x1024, .f32⟩ : BufTy).Contents (Elt Ideal)) (X2 : (⟨S1024, .f32⟩ : BufTy).Contents (Elt Ideal)) (X3 : (⟨S1024x64, .f32⟩ : BufTy).Contents (Elt Ideal)) (X4 : (⟨S64, .f32⟩ : BufTy).Contents (Elt Ideal)) (i : Fin 16384) (e : Fin 64) :
    val_main_v15 (F := Ideal) X0 X1 X2 X3 X4 (ix2 i e)
      = Ideal.exp (val_main_v8 (F := Ideal) X0 X1 X2 X3 X4 (ix2 i e)
          - Cert.Router.rowMax (fun e' => val_main_v8 (F := Ideal) X0 X1 X2 X3 X4 (ix2 i e'))) := by
  rw [val_main_v15_apply, val_main_v14_apply, val_main_v13_apply, val_main_v12_apply, idx_max, rowmax_at]
  simp only [Ideal.hostUnary_exp_def, Ideal.subf_def]

/-- The result at token i is the router's gate of the token's logits. -/
theorem gate_at (X0 : (⟨S16384x2048, .f32⟩ : BufTy).Contents (Elt Ideal)) (X1 : (⟨S2048x1024, .f32⟩ : BufTy).Contents (Elt Ideal)) (X2 : (⟨S1024, .f32⟩ : BufTy).Contents (Elt Ideal)) (X3 : (⟨S1024x64, .f32⟩ : BufTy).Contents (Elt Ideal)) (X4 : (⟨S64, .f32⟩ : BufTy).Contents (Elt Ideal)) (i : Fin 16384) (e : Fin 64) :
    val_main_v19 (F := Ideal) X0 X1 X2 X3 X4 (ix2 i e)
      = Cert.Router.gate (fun e' => val_main_v8 (F := Ideal) X0 X1 X2 X3 X4 (ix2 i e')) e := by
  rw [val_main_v19_apply, val_main_v18_apply, val_main_v17_apply, val_main_v16_apply, val_main_cst_1_apply]
  unfold Cert.Router.gate
  simp only [idx_sum, exp_at, Ideal.hostDivf_def, Ideal.ofBits_def, Ideal.ofBits_zero_f32, zero_add]

end Cert.ReferenceIdeal.Row

end
-- ==== Proof.lean ====
/-
  The staggered MoE router against its plain reference, over the extended reals.

  The kernel computes, per token, h = max (x W1 + b1, 0), the expert logits l = h W2 + b2 and the softmax of l taken
  against the row maximum; the reference computes the same three steps on whole arrays. The kernel's grid has nine
  points for eight blocks of 2048 tokens: point t stores the logits of block t into one of two scratch slots while it
  turns the logits that point t - 1 left in the other slot into softmax weights, and the weights it stores are written
  back to output block t - 1. At point 0 the scratch holds nothing meaningful and the weights stored there are never
  written back: point 1 overwrites the same output buffer before the first write-back.

  Frames (both float instances): one run of the body per kind of point, generic in the instance, under an invariant
  that says, before each point after the first, that the slot about to be read holds the logits of the point before;
  the output window's contents are constrained by a relation that says nothing at point 0 and names the weights
  afterwards. The value: every write-back is its block of one whole-array function, the router's gate of the router's
  logits of each token's feature row, and the blocks written back at points 1 … 8 tile the output. The reference's
  generated run, read one token at a time, is the same function: a matrix product is the same sum on both sides,
  the reference's extra maximum with minus infinity is absorbed by the fold it is taken with, and its sum from zero is
  the sum.
-/
import proofs.«174143_g56796647523006_cont_9to1c4b_719_23_alg».proof.Defs
import proofs.«174143_g56796647523006_cont_9to1c4b_719_23_alg».proof.Proof.Gen.Kernel
import proofs.«174143_g56796647523006_cont_9to1c4b_719_23_alg».proof.Proof.Gen.KernelIdeal
import proofs.«174143_g56796647523006_cont_9to1c4b_719_23_alg».proof.Proof.Gen.ReferenceIdeal
import proofs.«174143_g56796647523006_cont_9to1c4b_719_23_alg».proof.Proof.Gen.Pre_finite_inputs
import proofs.«174143_g56796647523006_cont_9to1c4b_719_23_alg».proof.Proof.Gen.ReferenceIdeal.Run
import proofs.«174143_g56796647523006_cont_9to1c4b_719_23_alg».proof.Proof.Gen.ReferenceIdeal.Read
import proofs.«174143_g56796647523006_cont_9to1c4b_719_23_alg».proof.Proof.KernelLaunch
import proofs.«174143_g56796647523006_cont_9to1c4b_719_23_alg».proof.Proof.KernelIdealValue
import proofs.«174143_g56796647523006_cont_9to1c4b_719_23_alg».proof.Proof.ReferenceRow
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel terminates without a fault and leaves its arguments as launched. -/
theorem frame_p : Cert.frame_Kernel := fun m ρ _ => Cert.Kernel.Stagger.frame (F := Bits) m ρ

/-- So does the idealized kernel. -/
theorem frame_pi : Cert.frame_KernelIdeal := fun m ρ _ => Cert.KernelIdeal.Stagger.frame (F := Ideal) m ρ

/-- The reference is a straight line of host operations: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result, read at a token and an expert, is the router's weight of that token: its gate of its
    logits of the token's feature row. -/
theorem reference_weight (X0 : (⟨Cert.ReferenceIdeal.S16384x2048, .f32⟩ : BufTy).Contents (Elt Ideal)) (X1 : (⟨Cert.ReferenceIdeal.S2048x1024, .f32⟩ : BufTy).Contents (Elt Ideal))
    (X2 : (⟨Cert.ReferenceIdeal.S1024, .f32⟩ : BufTy).Contents (Elt Ideal)) (X3 : (⟨Cert.ReferenceIdeal.S1024x64, .f32⟩ : BufTy).Contents (Elt Ideal))
    (X4 : (⟨Cert.ReferenceIdeal.S64, .f32⟩ : BufTy).Contents (Elt Ideal)) (i : Fin 16384) (e : Fin 64) :
    Cert.ReferenceIdeal.Read.val_main_v19 (F := Ideal) X0 X1 X2 X3 X4 (ix2 i e)
      = Cert.Router.gate (fun e' => Cert.Router.logit (fun k => X0 (ix2 i k)) (fun k j => X1 (ix2 k j)) (fun j => X2 (ix1 j))
          (fun j e'' => X3 (ix2 j e'')) (fun e'' => X4 (ix1 e'')) e') e := by
  rw [Cert.ReferenceIdeal.Row.gate_at]
  exact congrArg (fun l => Cert.Router.gate l e) (funext fun e' => Cert.ReferenceIdeal.Row.logits_at X0 X1 X2 X3 X4 i e')

/-- From memories agreeing on the arguments both programs end with the router's weights of every token. -/
theorem algebraic : Cert.algebraic_KernelIdeal_ReferenceIdeal := by
  intro m ρ m' ρ' _ hagree
  refine ⟨fun c => Cert.KernelIdeal.Stagger.weights m c, Cert.KernelIdeal.Stagger.run_weights m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1, (hagree c).2.2.2.2]
  funext i
  rw [eq_ix2 i]
  exact reference_weight _ _ _ _ _ _ _

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
